-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S1200000x2 : Shape := ⟨2, ![1200000, 2]⟩
abbrev S2x1200000 : Shape := ⟨2, ![2, 1200000]⟩
abbrev S5x64 : Shape := ⟨2, ![5, 64]⟩
abbrev S64 : Shape := ⟨1, ![64]⟩
abbrev S64x64 : Shape := ⟨2, ![64, 64]⟩
abbrev S2x64 : Shape := ⟨2, ![2, 64]⟩
abbrev S192x64 : Shape := ⟨2, ![192, 64]⟩
abbrev S128x64 : Shape := ⟨2, ![128, 64]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S1200000x2 : S_.BroadcastsInDim S1200000x2 (![] : Fin 0 → Fin S1200000x2.rank)
  reducesTo_S1200000x2_S_d0_1 : S1200000x2.ReducesTo [0, 1] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64 : S_.BroadcastsInDim S2x64 (![] : Fin 0 → Fin S2x64.rank)
  reducesTo_S2x64_S_d0_1 : S2x64.ReducesTo [0, 1] S_
  bcast_S_S192x64 : S_.BroadcastsInDim S192x64 (![] : Fin 0 → Fin S192x64.rank)
  reducesTo_S192x64_S_d0_1 : S192x64.ReducesTo [0, 1] S_
  bcast_S_S128x64 : S_.BroadcastsInDim S128x64 (![] : Fin 0 → Fin S128x64.rank)
  reducesTo_S128x64_S_d0_1 : S128x64.ReducesTo [0, 1] S_
  bcast_S_S2x1200000 : S_.BroadcastsInDim S2x1200000 (![] : Fin 0 → Fin S2x1200000.rank)
  reducesTo_S2x1200000_S_d0_1 : S2x1200000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg2 : IVec S2x1200000 32) (main_arg15 : FVec F S64x64 .f32) (main_arg16 : FVec F S64 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_c_30 : IVec S_ 32 := constantI S_ 32 0#32
  let main_v79 : IVec S2x1200000 32 := broadcastInDim S2x1200000 ![] bcast_S_S2x1200000 main_c_30
  let main_v80 : IVec S2x1200000 1 := cmpi .sge main_arg2 main_v79
  let main_c_31 : IVec S_ 32 := constantI S_ 32 50000#32
  let main_v81 : IVec S2x1200000 32 := broadcastInDim S2x1200000 ![] bcast_S_S2x1200000 main_c_31
  let main_v82 : IVec S2x1200000 1 := cmpi .slt main_arg2 main_v81
  let main_v83 : IVec S2x1200000 1 := andi main_v80 main_v82
  let main_c_32 : IVec S_ 1 := constantI S_ 1 1#1
  let main_v84 : IVec S_ 1 := (fun x v => Host.reduce IntOp.andi x v reducesTo_S2x1200000_S_d0_1 h_S_) main_v83 main_c_32
  fn_part5 (F := F) main_v78 main_v84

def fn_part3 {F : FTy → Type} [FloatOps F] (main_arg2 : IVec S2x1200000 32) (main_arg12 : FVec F S64 .f32) (main_arg13 : FVec F S128x64 .f32) (main_arg14 : FVec F S64 .f32) (main_arg15 : FVec F S64x64 .f32) (main_arg16 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_arg15 main_arg16 main_v63 main_v67

def fn_part2 {F : FTy → Type} [FloatOps F] (main_arg2 : IVec S2x1200000 32) (main_arg8 : FVec F S64 .f32) (main_arg9 : FVec F S192x64 .f32) (main_arg10 : FVec F S64 .f32) (main_arg11 : FVec F S64x64 .f32) (main_arg12 : FVec F S64 .f32) (main_arg13 : FVec F S128x64 .f32) (main_arg14 : FVec F S64 .f32) (main_arg15 : FVec F S64x64 .f32) (main_arg16 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x64 .f32 := Host.absf main_arg9
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg2 main_arg12 main_arg13 main_arg14 main_arg15 main_arg16 main_v48 main_v49 main_v50

def fn_part1 {F : FTy → Type} [FloatOps F] (main_arg2 : IVec S2x1200000 32) (main_arg5 : FVec F S64x64 .f32) (main_arg6 : FVec F S64 .f32) (main_arg7 : FVec F S2x64 .f32) (main_arg8 : FVec F S64 .f32) (main_arg9 : FVec F S192x64 .f32) (main_arg10 : FVec F S64 .f32) (main_arg11 : FVec F S64x64 .f32) (main_arg12 : FVec F S64 .f32) (main_arg13 : FVec F S128x64 .f32) (main_arg14 : FVec F S64 .f32) (main_arg15 : FVec F S64x64 .f32) (main_arg16 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_v33

def fn {F : FTy → Type} [FloatOps F] (main_arg0 : FVec F S50000x5 .f32) (main_arg1 : FVec F S1200000x2 .f32) (main_arg2 : IVec S2x1200000 32) (main_arg3 : FVec F S5x64 .f32) (main_arg4 : FVec F S64 .f32) (main_arg5 : FVec F S64x64 .f32) (main_arg6 : FVec F S64 .f32) (main_arg7 : FVec F S2x64 .f32) (main_arg8 : FVec F S64 .f32) (main_arg9 : FVec F S192x64 .f32) (main_arg10 : FVec F S64 .f32) (main_arg11 : FVec F S64x64 .f32) (main_arg12 : FVec F S64 .f32) (main_arg13 : FVec F S128x64 .f32) (main_arg14 : FVec F S64 .f32) (main_arg15 : FVec F S64x64 .f32) (main_arg16 : FVec F S64 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S1200000x2 .f32 := Host.absf main_arg1
  let main_cst_0 : FVec F S_ .f32 := constant S_ .f32 0x7F800000#32
  let main_v5 : FVec F S1200000x2 .f32 := broadcastInDim S1200000x2 ![] bcast_S_S1200000x2 main_cst_0
  let main_v6 : IVec S1200000x2 1 := cmpf .olt main_v4 main_v5
  let main_c_1 : IVec S_ 1 := constantI S_ 1 1#1
  let main_v7 : IVec S_ 1 := (fun x v => Host.reduce IntOp.andi x v reducesTo_S1200000x2_S_d0_1 h_S_) main_v6 main_c_1
  let main_v8 : IVec S_ 1 := andi main_v3 main_v7
  let main_v9 : FVec F S5x64 .f32 := Host.absf main_arg3
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_arg8 main_arg9 main_arg10 main_arg11 main_arg12 main_arg13 main_arg14 main_arg15 main_arg16 main_v13 main_v16
-- ==== Kernel.lean ====
abbrev S50000x5 : Shape := ⟨2, ![50000, 5]⟩
abbrev S1200000x2 : Shape := ⟨2, ![1200000, 2]⟩
abbrev S2x1200000 : Shape := ⟨2, ![2, 1200000]⟩
abbrev S5x64 : Shape := ⟨2, ![5, 64]⟩
abbrev S64 : Shape := ⟨1, ![64]⟩
abbrev S64x64 : Shape := ⟨2, ![64, 64]⟩
abbrev S2x64 : Shape := ⟨2, ![2, 64]⟩
abbrev S192x64 : Shape := ⟨2, ![192, 64]⟩
abbrev S128x64 : Shape := ⟨2, ![128, 64]⟩
abbrev S50000x64 : Shape := ⟨2, ![50000, 64]⟩
abbrev S5000x5 : Shape := ⟨2, ![5000, 5]⟩
abbrev S5000x64 : Shape := ⟨2, ![5000, 64]⟩
abbrev S1x64 : Shape := ⟨2, ![1, 64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1 : Shape := ⟨1, ![1]⟩
abbrev S1x1 : Shape := ⟨2, ![1, 1]⟩
abbrev S1200000x64 : Shape := ⟨2, ![1200000, 64]⟩
abbrev S8000x64 : Shape := ⟨2, ![8000, 64]⟩
abbrev S8000x2 : Shape := ⟨2, ![8000, 2]⟩
abbrev S8000x192 : Shape := ⟨2, ![8000, 192]⟩
abbrev S50000 : Shape := ⟨1, ![50000]⟩
abbrev S50000x1 : Shape := ⟨2, ![50000, 1]⟩
abbrev S5000x128 : Shape := ⟨2, ![5000, 128]⟩

abbrev nBuf : Space → Nat
  | .hbm => 86
  | .vmem => 32
  | .smem => 0
  | _ => 0

abbrev bufTy : (tb : Table) → Fin (tcTables nBuf tb) → BufTy
  | .hbm, ⟨0, _⟩ => ⟨S50000x5, .f32⟩
  | .hbm, ⟨1, _⟩ => ⟨S1200000x2, .f32⟩
  | .hbm, ⟨2, _⟩ => ⟨S2x1200000, .i32⟩
  | .hbm, ⟨3, _⟩ => ⟨S5x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S128x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S50000x64, .f32⟩
  | .hbm, ⟨18, _⟩ => ⟨S1x1200000, .i32⟩
  | .hbm, ⟨19, _⟩ => ⟨S1200000, .i32⟩
  | .hbm, ⟨20, _⟩ => ⟨S1x1200000, .i32⟩
  | .hbm, ⟨21, _⟩ => ⟨S1200000, .i32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1, .i32⟩
  | .hbm, ⟨31, _⟩ => ⟨S_, .i32⟩
  | .hbm, ⟨32, _⟩ => ⟨S1200000x1, .i32⟩
  | .hbm, ⟨33, _⟩ => ⟨S1200000x1, .i1⟩
  | .hbm, ⟨34, _⟩ => ⟨S1x1, .i32⟩
  | .hbm, ⟨35, _⟩ => ⟨S1200000x1, .i32⟩
  | .hbm, ⟨36, _⟩ => ⟨S1200000x1, .i1⟩
  | .hbm, ⟨37, _⟩ => ⟨S1200000x1, .i1⟩
  | .hbm, ⟨38, _⟩ => ⟨S_, .i1⟩
  | .hbm, ⟨39, _⟩ => ⟨S1200000, .i1⟩
  | .hbm, ⟨40, _⟩ => ⟨S1200000x64, .f32⟩
  | .hbm, ⟨41, _⟩ => ⟨S1200000x64, .i1⟩
  | .hbm, ⟨42, _⟩ => ⟨S_, .f32⟩
  | .hbm, ⟨43, _⟩ => ⟨S1200000x64, .f32⟩
  | .hbm, ⟨44, _⟩ => ⟨S1200000x64, .f32⟩
  | .hbm, ⟨45, _⟩ => ⟨S_, .i32⟩
  | .hbm, ⟨46, _⟩ => ⟨S1200000, .i32⟩
  | .hbm, ⟨47, _⟩ => ⟨S1200000, .i1⟩
  | .hbm, ⟨48, _⟩ => ⟨S_, .i32⟩
  | .hbm, ⟨49, _⟩ => ⟨S1200000, .i32⟩
  | .hbm, ⟨50, _⟩ => ⟨S1200000, .i32⟩
  | .hbm, ⟨51, _⟩ => ⟨S1200000, .i32⟩
  | .hbm, ⟨52, _⟩ => ⟨S1200000x1, .i32⟩
  | .hbm, ⟨53, _⟩ => ⟨S1, .i32⟩
  | .hbm, ⟨54, _⟩ => ⟨S_, .i32⟩
  | .hbm, ⟨55, _⟩ => ⟨S1200000x1, .i32⟩
  | .hbm, ⟨56, _⟩ => ⟨S1200000x1, .i1⟩
  | .hbm, ⟨57, _⟩ => ⟨S1x1, .i32⟩
  | .hbm, ⟨58, _⟩ => ⟨S1200000x1, .i32⟩
  | .hbm, ⟨59, _⟩ => ⟨S1200000x1, .i1⟩
  | .hbm, ⟨60, _⟩ => ⟨S1200000x1, .i1⟩
  | .hbm, ⟨61, _⟩ => ⟨S_, .i1⟩
  | .hbm, ⟨62, _⟩ => ⟨S1200000, .i1⟩
  | .hbm, ⟨63, _⟩ => ⟨S1200000x64, .f32⟩
  | .hbm, ⟨64, _⟩ => ⟨S1200000x64, .i1⟩
  | .hbm, ⟨65, _⟩ => ⟨S_, .f32⟩
  | .hbm, ⟨66, _⟩ => ⟨S1200000x64, .f32⟩
  | .hbm, ⟨67, _⟩ => ⟨S1200000x64, .f32⟩
  | .hbm, ⟨68, _⟩ => ⟨S1200000x64, .f32⟩
  | .hbm, ⟨69, _⟩ => ⟨S_, .f32⟩
  | .hbm, ⟨70, _⟩ => ⟨S50000x64, .f32⟩
  | .hbm, ⟨71, _⟩ => ⟨S1200000x1, .i32⟩
  | .hbm, ⟨72, _⟩ => ⟨S50000x64, .f32⟩
  | .hbm, ⟨73, _⟩ => ⟨S_, .f32⟩
  | .hbm, ⟨74, _⟩ => ⟨S1200000, .f32⟩
  | .hbm, ⟨75, _⟩ => ⟨S_, .f32⟩
  | .hbm, ⟨76, _⟩ => ⟨S50000, .f32⟩
  | .hbm, ⟨77, _⟩ => ⟨S1200000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000x1, .f32⟩
  | .hbm, ⟨83, _⟩ => ⟨S50000x64, .f32⟩
  | .hbm, ⟨84, _⟩ => ⟨S50000x64, .f32⟩
  | .hbm, ⟨85, _⟩ => ⟨S50000x64, .f32⟩
  | .local _ .vmem, ⟨0, _⟩ => ⟨S5000x5, .f32⟩
  | .local _ .vmem, ⟨1, _⟩ => ⟨S5000x5, .f32⟩
  | .local _ .vmem, ⟨2, _⟩ => ⟨S5x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8000x2, .f32⟩
  | .local _ .vmem, ⟨13, _⟩ => ⟨S8000x2, .f32⟩
  | .local _ .vmem, ⟨14, _⟩ => ⟨S2x64, .f32⟩
  | .local _ .vmem, ⟨15, _⟩ => ⟨S64, .f32⟩
  | .local _ .vmem, ⟨16, _⟩ => ⟨S192x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S8000x64, .f32⟩
  | .local _ .vmem, ⟨21, _⟩ => ⟨S8000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S128x64, .f32⟩
  | .local _ .vmem, ⟨27, _⟩ => ⟨S64, .f32⟩
  | .local _ .vmem, ⟨28, _⟩ => ⟨S64x64, .f32⟩
  | .local _ .vmem, ⟨29, _⟩ => ⟨S64, .f32⟩
  | .local _ .vmem, ⟨30, _⟩ => ⟨S5000x64, .f32⟩
  | .local _ .vmem, ⟨31, _⟩ => ⟨S5000x64, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v5 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v6 : Ref sig .tc := ⟨.hbm, 67, rfl⟩
abbrev main_v7 : Ref sig .tc := ⟨.hbm, 68, rfl⟩
abbrev main_cst : Ref sig .tc := ⟨.hbm, 69, rfl⟩
abbrev main_v8 : Ref sig .tc := ⟨.hbm, 70, rfl⟩
abbrev main_v9 : Ref sig .tc := ⟨.hbm, 71, rfl⟩
abbrev main_v10 : Ref sig .tc := ⟨.hbm, 72, rfl⟩
abbrev main_cst_0 : Ref sig .tc := ⟨.hbm, 73, rfl⟩
abbrev main_v11 : Ref sig .tc := ⟨.hbm, 74, rfl⟩
abbrev main_cst_1 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_cst_2 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S192x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x2_S8000x2_0_0 : ∀ a, (![0, 0] : Fin 2 → Nat) a + S8000x2.size a ≤ S8000x2.size a
  h_S8000x2 : 0 < S8000x2.numel
  inb_S2x64_S2x64_0_0 : ∀ a, (![0, 0] : Fin 2 → Nat) a + S2x64.size a ≤ S2x64.size a
  h_S2x64 : 0 < S2x64.numel
  broadcasts_S1x64_S8000x64 : S1x64.Broadcasts S8000x64
  concatenates_S8000x64_S8000x64_S8000x64_S8000x192_d1 : Shape.Concatenates [S8000x64, S8000x64, S8000x64] S8000x192 1
  inb_S192x64_S192x64_0_0 : ∀ a, (![0, 0] : Fin 2 → Nat) a + S192x64.size a ≤ S192x64.size a
  h_S192x64 : 0 < S192x64.numel
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  dot_S5000x5_S5x64_S5000x64_1_0_0_1_n_n_wf : DotDims.WF S5000x5 S5x64 S5000x64 [1] [0] [0] [1] [] []
  dot_S5000x64_S64x64_S5000x64_1_0_0_1_n_n_wf : DotDims.WF S5000x64 S64x64 S5000x64 [1] [0] [0] [1] [] []
  gather_S50000x64_S1200000x1_S1200000x64_1_0_n_n_0_1_164_wf : GatherDims.WF S50000x64 S1200000x1 S1200000x64 [1] [0] [] [0] [] 1 ![1, 64]
  dot_S8000x2_S2x64_S8000x64_1_0_0_1_n_n_wf : DotDims.WF S8000x2 S2x64 S8000x64 [1] [0] [0] [1] [] []
  dot_S8000x192_S192x64_S8000x64_1_0_0_1_n_n_wf : DotDims.WF S8000x192 S192x64 S8000x64 [1] [0] [0] [1] [] []
  dot_S8000x64_S64x64_S8000x64_1_0_0_1_n_n_wf : DotDims.WF S8000x64 S64x64 S8000x64 [1] [0] [0] [1] [] []
  scatter_S50000x64_S1200000x1_S1200000x64_1_0_0_1_wf : ScatterDims.WF S50000x64 S1200000x1 S1200000x64 [1] [0] [0] 1
  scatter_S50000_S1200000x1_S1200000_n_0_0_1_wf : ScatterDims.WF S50000 S1200000x1 S1200000 [] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1200000x64.size a
  hwx1_0 : ∀ i : grid1.Coords, EltTy.bits .f32 = 32 ∨ (Rect.block (s := S1200000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S1200000x64.size a
  hwx1_1 : ∀ i : grid1.Coords, EltTy.bits .f32 = 32 ∨ (Rect.block (s := S1200000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x2.size a ≤ S1200000x2.size a
  hwx1_2 : ∀ i : grid1.Coords, EltTy.bits .f32 = 32 ∨ (Rect.block (s := S1200000x2) S8000x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x64.size a ≤ S2x64.size a
  hwx1_3 : ∀ i : grid1.Coords, EltTy.bits .f32 = 32 ∨ (Rect.block (s := S2x64) S2x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S192x64.size a ≤ S192x64.size a
  hwx1_5 : ∀ i : grid1.Coords, EltTy.bits .f32 = 32 ∨ (Rect.block (s := S192x64) S192x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8000x64.size a ≤ S1200000x64.size a
  hwx1_9 : ∀ i : grid1.Coords, EltTy.bits .f32 = 32 ∨ (Rect.block (s := S1200000x64) S8000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def dot_S8000x2_S2x64_S8000x64_1_0_0_1_n_n : DotDims S8000x2 S2x64 S8000x64 where
  lhsContracting := [1]
  rhsContracting := [0]
  lhsNonContracting := [0]
  rhsNonContracting := [1]
  lhsBatch := []
  rhsBatch := []
  wf := dot_S8000x2_S2x64_S8000x64_1_0_0_1_n_n_wf
def dot_S8000x192_S192x64_S8000x64_1_0_0_1_n_n : DotDims S8000x192 S192x64 S8000x64 where
  lhsContracting := [1]
  rhsContracting := [0]
  lhsNonContracting := [0]
  rhsNonContracting := [1]
  lhsBatch := []
  rhsBatch := []
  wf := dot_S8000x192_S192x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S1200000x1_S1200000x64_1_0_0_1 : ScatterDims S50000x64 S1200000x1 S1200000x64 where
  updateWindowDims := [1]
  insertedWindowDims := [0]
  scatterDimsToOperandDims := [0]
  indexVectorDim := 1
  wf := scatter_S50000x64_S1200000x1_S1200000x64_1_0_0_1_wf
def scatter_S50000_S1200000x1_S1200000_n_0_0_1 : ScatterDims S50000 S1200000x1 S1200000 where
  updateWindowDims := []
  insertedWindowDims := [0]
  scatterDimsToOperandDims := [0]
  indexVectorDim := 1
  wf := scatter_S50000_S1200000x1_S1200000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S8000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S2x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S192x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v7) S8000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x5 : Shape := ⟨2, ![50000, 5]⟩
abbrev S1200000x2 : Shape := ⟨2, ![1200000, 2]⟩
abbrev S2x1200000 : Shape := ⟨2, ![2, 1200000]⟩
abbrev S5x64 : Shape := ⟨2, ![5, 64]⟩
abbrev S64 : Shape := ⟨1, ![64]⟩
abbrev S64x64 : Shape := ⟨2, ![64, 64]⟩
abbrev S2x64 : Shape := ⟨2, ![2, 64]⟩
abbrev S192x64 : Shape := ⟨2, ![192, 64]⟩
abbrev S128x64 : Shape := ⟨2, ![128, 64]⟩
abbrev S50000x64 : Shape := ⟨2, ![50000, 64]⟩
abbrev S1x64 : Shape := ⟨2, ![1, 64]⟩
abbrev S_ : Shape := ⟨0, ![]⟩
abbrev S1200000x64 : Shape := ⟨2, ![1200000, 64]⟩
abbrev S1x1200000 : Shape := ⟨2, ![1, 1200000]⟩
abbrev S1200000 : Shape := ⟨1, ![1200000]⟩
abbrev S1200000x1 : Shape := ⟨2, ![1200000, 1]⟩
abbrev S1200000x192 : Shape := ⟨2, ![1200000, 192]⟩
abbrev S50000 : Shape := ⟨1, ![50000]⟩
abbrev S50000x1 : Shape := ⟨2, ![50000, 1]⟩
abbrev S50000x128 : Shape := ⟨2, ![50000, 128]⟩

abbrev nBuf : Space → Nat
  | .hbm => 94
  | .vmem => 0
  | .smem => 0
  | _ => 0

abbrev bufTy : (tb : Table) → Fin (tcTables nBuf tb) → BufTy
  | .hbm, ⟨0, _⟩ => ⟨S50000x5, .f32⟩
  | .hbm, ⟨1, _⟩ => ⟨S1200000x2, .f32⟩
  | .hbm, ⟨2, _⟩ => ⟨S2x1200000, .i32⟩
  | .hbm, ⟨3, _⟩ => ⟨S5x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S128x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S50000x64, .f32⟩
  | .hbm, ⟨18, _⟩ => ⟨S1x64, .f32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S50000x64, .f32⟩
  | .hbm, ⟨23, _⟩ => ⟨S50000x64, .f32⟩
  | .hbm, ⟨24, _⟩ => ⟨S50000x64, .f32⟩
  | .hbm, ⟨25, _⟩ => ⟨S1x64, .f32⟩
  | .hbm, ⟨26, _⟩ => ⟨S50000x64, .f32⟩
  | .hbm, ⟨27, _⟩ => ⟨S50000x64, .f32⟩
  | .hbm, ⟨28, _⟩ => ⟨S1200000x64, .f32⟩
  | .hbm, ⟨29, _⟩ => ⟨S1x64, .f32⟩
  | .hbm, ⟨30, _⟩ => ⟨S1200000x64, .f32⟩
  | .hbm, ⟨31, _⟩ => ⟨S1200000x64, .f32⟩
  | .hbm, ⟨32, _⟩ => ⟨S1x1200000, .i32⟩
  | .hbm, ⟨33, _⟩ => ⟨S1200000, .i32⟩
  | .hbm, ⟨34, _⟩ => ⟨S1x1200000, .i32⟩
  | .hbm, ⟨35, _⟩ => ⟨S1200000, .i32⟩
  | .hbm, ⟨36, _⟩ => ⟨S_, .i32⟩
  | .hbm, ⟨37, _⟩ => ⟨S1200000, .i32⟩
  | .hbm, ⟨38, _⟩ => ⟨S1200000, .i1⟩
  | .hbm, ⟨39, _⟩ => ⟨S_, .i32⟩
  | .hbm, ⟨40, _⟩ => ⟨S1200000, .i32⟩
  | .hbm, ⟨41, _⟩ => ⟨S1200000, .i32⟩
  | .hbm, ⟨42, _⟩ => ⟨S1200000, .i32⟩
  | .hbm, ⟨43, _⟩ => ⟨S1200000x1, .i32⟩
  | .hbm, ⟨44, _⟩ => ⟨S1200000x64, .f32⟩
  | .hbm, ⟨45, _⟩ => ⟨S_, .i32⟩
  | .hbm, ⟨46, _⟩ => ⟨S1200000, .i32⟩
  | .hbm, ⟨47, _⟩ => ⟨S1200000, .i1⟩
  | .hbm, ⟨48, _⟩ => ⟨S_, .i32⟩
  | .hbm, ⟨49, _⟩ => ⟨S1200000, .i32⟩
  | .hbm, ⟨50, _⟩ => ⟨S1200000, .i32⟩
  | .hbm, ⟨51, _⟩ => ⟨S1200000, .i32⟩
  | .hbm, ⟨52, _⟩ => ⟨S1200000x1, .i32⟩
  | .hbm, ⟨53, _⟩ => ⟨S1200000x64, .f32⟩
  | .hbm, ⟨54, _⟩ => ⟨S1200000x192, .f32⟩
  | .hbm, ⟨55, _⟩ => ⟨S1200000x64, .f32⟩
  | .hbm, ⟨56, _⟩ => ⟨S1x64, .f32⟩
  | .hbm, ⟨57, _⟩ => ⟨S1200000x64, .f32⟩
  | .hbm, ⟨58, _⟩ => ⟨S1200000x64, .f32⟩
  | .hbm, ⟨59, _⟩ => ⟨S_, .f32⟩
  | .hbm, ⟨60, _⟩ => ⟨S1200000x64, .f32⟩
  | .hbm, ⟨61, _⟩ => ⟨S1200000x64, .f32⟩
  | .hbm, ⟨62, _⟩ => ⟨S1200000x64, .f32⟩
  | .hbm, ⟨63, _⟩ => ⟨S1x64, .f32⟩
  | .hbm, ⟨64, _⟩ => ⟨S1200000x64, .f32⟩
  | .hbm, ⟨65, _⟩ => ⟨S1200000x64, .f32⟩
  | .hbm, ⟨66, _⟩ => ⟨S_, .f32⟩
  | .hbm, ⟨67, _⟩ => ⟨S50000x64, .f32⟩
  | .hbm, ⟨68, _⟩ => ⟨S1200000x1, .i32⟩
  | .hbm, ⟨69, _⟩ => ⟨S50000x64, .f32⟩
  | .hbm, ⟨70, _⟩ => ⟨S_, .f32⟩
  | .hbm, ⟨71, _⟩ => ⟨S1200000, .f32⟩
  | .hbm, ⟨72, _⟩ => ⟨S_, .f32⟩
  | .hbm, ⟨73, _⟩ => ⟨S50000, .f32⟩
  | .hbm, ⟨74, _⟩ => ⟨S1200000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x64, .f32⟩
  | .hbm, ⟨81, _⟩ => ⟨S50000x64, .f32⟩
  | .hbm, ⟨82, _⟩ => ⟨S50000x128, .f32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S_, .f32⟩
  | .hbm, ⟨88, _⟩ => ⟨S50000x64, .f32⟩
  | .hbm, ⟨89, _⟩ => ⟨S50000x64, .f32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_1 : Ref sig .tc := ⟨.hbm, 45, rfl⟩
abbrev main_v24 : Ref sig .tc := ⟨.hbm, 46, rfl⟩
abbrev main_v25 : Ref sig .tc := ⟨.hbm, 47, rfl⟩
abbrev main_c_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call1_cst : Ref sig .tc := ⟨.hbm, 59, rfl⟩
abbrev main_call1_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_3 : Ref sig .tc := ⟨.hbm, 70, rfl⟩
abbrev main_v44 : Ref sig .tc := ⟨.hbm, 71, rfl⟩
abbrev main_cst_4 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_5 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call2_cst : Ref sig .tc := ⟨.hbm, 87, rfl⟩
abbrev main_call2_v0 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1x64_S1200000x64_0_1 : S1x64.BroadcastsInDim S1200000x64 (![0, 1] : Fin 2 → Fin S1200000x64.rank)
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  concatenates_S1200000x64_S1200000x64_S1200000x64_S1200000x192_d1 : Shape.Concatenates [S1200000x64, S1200000x64, S1200000x64] S1200000x192 1
  bcast_S_S1200000x64 : S_.BroadcastsInDim S1200000x64 (![] : Fin 0 → Fin S1200000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  dot_S50000x5_S5x64_S50000x64_1_0_0_1_n_n_wf : DotDims.WF S50000x5 S5x64 S50000x64 [1] [0] [0] [1] [] []
  dot_S50000x64_S64x64_S50000x64_1_0_0_1_n_n_wf : DotDims.WF S50000x64 S64x64 S50000x64 [1] [0] [0] [1] [] []
  dot_S1200000x2_S2x64_S1200000x64_1_0_0_1_n_n_wf : DotDims.WF S1200000x2 S2x64 S1200000x64 [1] [0] [0] [1] [] []
  gather_S50000x64_S1200000x1_S1200000x64_1_0_n_n_0_1_164_wf : GatherDims.WF S50000x64 S1200000x1 S1200000x64 [1] [0] [] [0] [] 1 ![1, 64]
  dot_S1200000x192_S192x64_S1200000x64_1_0_0_1_n_n_wf : DotDims.WF S1200000x192 S192x64 S1200000x64 [1] [0] [0] [1] [] []
  dot_S1200000x64_S64x64_S1200000x64_1_0_0_1_n_n_wf : DotDims.WF S1200000x64 S64x64 S1200000x64 [1] [0] [0] [1] [] []
  scatter_S50000x64_S1200000x1_S1200000x64_1_0_0_1_wf : ScatterDims.WF S50000x64 S1200000x1 S1200000x64 [1] [0] [0] 1
  scatter_S50000_S1200000x1_S1200000_n_0_0_1_wf : ScatterDims.WF S50000 S1200000x1 S1200000 [] [0] [0] 1
  dot_S50000x128_S128x64_S50000x64_1_0_0_1_n_n_wf : DotDims.WF S50000x128 S128x64 S50000x64 [1] [0] [0] [1] [] []

variable [Facts₀]

def dot_S50000x5_S5x64_S50000x64_1_0_0_1_n_n : DotDims S50000x5 S5x64 S50000x64 where
  lhsContracting := [1]
  rhsContracting := [0]
  lhsNonContracting := [0]
  rhsNonContracting := [1]
  lhsBatch := []
  rhsBatch := []
  wf := dot_S50000x5_S5x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1200000x2_S2x64_S1200000x64_1_0_0_1_n_n : DotDims S1200000x2 S2x64 S1200000x64 where
  lhsContracting := [1]
  rhsContracting := [0]
  lhsNonContracting := [0]
  rhsNonContracting := [1]
  lhsBatch := []
  rhsBatch := []
  wf := dot_S1200000x2_S2x64_S1200000x64_1_0_0_1_n_n_wf
def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def dot_S1200000x192_S192x64_S1200000x64_1_0_0_1_n_n : DotDims S1200000x192 S192x64 S1200000x64 where
  lhsContracting := [1]
  rhsContracting := [0]
  lhsNonContracting := [0]
  rhsNonContracting := [1]
  lhsBatch := []
  rhsBatch := []
  wf := dot_S1200000x192_S192x64_S1200000x64_1_0_0_1_n_n_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def scatter_S50000x64_S1200000x1_S1200000x64_1_0_0_1 : ScatterDims S50000x64 S1200000x1 S1200000x64 where
  updateWindowDims := [1]
  insertedWindowDims := [0]
  scatterDimsToOperandDims := [0]
  indexVectorDim := 1
  wf := scatter_S50000x64_S1200000x1_S1200000x64_1_0_0_1_wf
def scatter_S50000_S1200000x1_S1200000_n_0_0_1 : ScatterDims S50000 S1200000x1 S1200000 where
  updateWindowDims := []
  insertedWindowDims := [0]
  scatterDimsToOperandDims := [0]
  indexVectorDim := 1
  wf := scatter_S50000_S1200000x1_S1200000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.TakeRows.lean ====
/-
  The kernel's guarded row lookup against the reference's plain one. The kernel reads row idx of the node table and
  replaces the row by a filler wherever idx (after wrapping a negative idx by the table's length) lies outside
  0 … 49999; the reference reads the row with no guard. Where every index is a node index, 0 ≤ idx < 50000, the
  wrap is the identity, the guard passes on every row, and the two lookups are the same array.
-/
import proofs.«406139_j54039278518761_1_alg».proof.Proof.Gen.KernelIdeal
import proofs.«406139_j54039278518761_1_alg».proof.Proof.Gen.ReferenceIdeal.Read
import Idealize.ShloMosaic.Lib.StableHlo.Predicate
import Idealize.ShloMosaic.Lib.ReduceAll
import Idealize.ShloMosaic.Lib.ValueIdx

noncomputable section

namespace Cert.KernelIdeal.TakeRows

open Cert.KernelIdeal Cert.KernelIdeal.Gen Idealize.ShloMosaic

/-- Every entry of the edge list is a node index. -/
def InRange (x2 : IVec S2x1200000 32) : Prop :=
  ∀ i : S2x1200000.Idx, 0 ≤ (x2 i).toInt ∧ (x2 i).toInt < 50000

/-- Row 0 of the edge list (the sources), as a vector of E indices. -/
def srcIdx (x2 : IVec S2x1200000 32) : IVec S1200000 32 :=
  shapeCast S1200000 (extractStridedSlice S1x1200000 ![0, 0] x2 slices_S2x1200000_S1x1200000_0_0) shapeCasts_S1x1200000_S1200000

/-- Row 1 of the edge list (the destinations), as a vector of E indices. -/
def dstIdx (x2 : IVec S2x1200000 32) : IVec S1200000 32 :=
  shapeCast S1200000 (extractStridedSlice S1x1200000 ![1, 0] x2 slices_S2x1200000_S1x1200000_1_0) shapeCasts_S1x1200000_S1200000

/-- An index vector with negatives wrapped by the table's length, as a column. -/
def wrapIdx (d : IVec S1200000 32) : IVec S1200000x1 32 :=
  broadcastInDim S1200000x1 ![0] bcast_S1200000_S1200000x1_0
    (select (cmpi .slt d (broadcastInDim S1200000 ![] bcast_S_S1200000 (constantI S_ 32 0#32)))
      (addi d (broadcastInDim S1200000 ![] bcast_S_S1200000 (constantI S_ 32 50000#32))) d)

/-- The kernel's guarded lookup: rows of `h` at the wrapped indices, a filler where the wrapped index is out of range. -/
def takeRows (h : FVec Ideal S50000x64 .f32) (d : IVec S1200000 32) : FVec Ideal S1200000x64 .f32 :=
  select
    (broadcastInDim S1200000x64 ![0] bcast_S1200000_S1200000x64_0
      (Host.reduce IntOp.andi
        (andi (cmpi .sge (wrapIdx d) (broadcastInDim S1200000x1 ![] bcast_S_S1200000x1 (constantI S_ 32 0#32)))
          (cmpi .sle (wrapIdx d)
            (broadcastInDim S1200000x1 ![0, 1] bcast_S1x1_S1200000x1_0_1 (broadcastInDim S1x1 ![1] bcast_S1_S1x1_1 (constantI S1 32 49999#32)))))
        (constantI S_ 1 1#1) reducesTo_S1200000x1_S1200000_d1 h_S_))
    (Host.gather gather_S50000x64_S1200000x1_S1200000x64_1_0_n_n_0_1_164 h (wrapIdx d))
    (broadcastInDim S1200000x64 ![] bcast_S_S1200000x64 (constant (F := Ideal) S_ .f32 0x7FC00000#32))

/-! ### Words: a node index read signed

For a 32-bit word `w` with 0 ≤ w < 50000 as a signed integer: `w < 0` is false, so the wrap keeps `w`; `w ≥ 0` and
`w ≤ 49999` are both true. -/

theorem word_wrap (w : BitVec 32) (h0 : 0 ≤ w.toInt) :
    Scalar.select (IntOp.cmpi .slt w 0#32) (IntOp.addi w 50000#32) w = w := by
  have hz : (0#32 : BitVec 32).toInt = 0 := by decide
  have hc : IntOp.cmpi .slt w 0#32 = 0#1 :=
    ValueIdx.eq_zero_of_ne_one fun h => by have := IntOp.cmpi_slt.1 h; rw [hz] at this; omega
  rw [hc]; exact ValueIdx.select_zero _ _

theorem word_sge (w : BitVec 32) (h0 : 0 ≤ w.toInt) : IntOp.cmpi .sge w 0#32 = 1#1 :=
  IntOp.cmpi_sge.2 (by rw [show (0#32 : BitVec 32).toInt = 0 from by decide]; exact h0)

theorem word_sle (w : BitVec 32) (h1 : w.toInt < 50000) : IntOp.cmpi .sle w 49999#32 = 1#1 :=
  IntOp.cmpi_sle.2 (by rw [show (49999#32 : BitVec 32).toInt = 49999 from by decide]; omega)

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-! ### The wrap and the guard at an index -/

/-- On node indices the wrap is the identity, entry by entry. -/
theorem wrap_apply (d : IVec S1200000 32) (hd : ∀ i : S1200000.Idx, 0 ≤ (d i).toInt ∧ (d i).toInt < 50000)
    (k : S1200000.Idx) :
    select (cmpi .slt d (broadcastInDim S1200000 ![] bcast_S_S1200000 (constantI S_ 32 0#32)))
      (addi d (broadcastInDim S1200000 ![] bcast_S_S1200000 (constantI S_ 32 50000#32))) d k = d k :=
  word_wrap (d k) (hd k).1

/-- Every entry of the wrapped column is an entry of `d`, hence a node index. -/
theorem wrapIdx_range (d : IVec S1200000 32) (hd : ∀ i : S1200000.Idx, 0 ≤ (d i).toInt ∧ (d i).toInt < 50000)
    (i : S1200000x1.Idx) : 0 ≤ (wrapIdx d i).toInt ∧ (wrapIdx d i).toInt < 50000 := by
  have key : ∀ k : S1200000.Idx,
      0 ≤ (select (cmpi .slt d (broadcastInDim S1200000 ![] bcast_S_S1200000 (constantI S_ 32 0#32)))
        (addi d (broadcastInDim S1200000 ![] bcast_S_S1200000 (constantI S_ 32 50000#32))) d k).toInt ∧
      (select (cmpi .slt d (broadcastInDim S1200000 ![] bcast_S_S1200000 (constantI S_ 32 0#32)))
        (addi d (broadcastInDim S1200000 ![] bcast_S_S1200000 (constantI S_ 32 50000#32))) d k).toInt < 50000 :=
    fun k => by rw [wrap_apply d hd k]; exact hd k
  exact key _

/-- The two range tests pass at every entry of the wrapped column. -/
theorem guard_apply (d : IVec S1200000 32) (hd : ∀ i : S1200000.Idx, 0 ≤ (d i).toInt ∧ (d i).toInt < 50000)
    (i : S1200000x1.Idx) :
    andi (cmpi .sge (wrapIdx d) (broadcastInDim S1200000x1 ![] bcast_S_S1200000x1 (constantI S_ 32 0#32)))
      (cmpi .sle (wrapIdx d)
        (broadcastInDim S1200000x1 ![0, 1] bcast_S1x1_S1200000x1_0_1 (broadcastInDim S1x1 ![1] bcast_S1_S1x1_1 (constantI S1 32 49999#32)))) i
      = 1#1 := by
  obtain ⟨h0, h1⟩ := wrapIdx_range d hd i
  show IntOp.andi (IntOp.cmpi .sge (wrapIdx d i) 0#32) (IntOp.cmpi .sle (wrapIdx d i) 49999#32) = 1#1
  rw [word_sge _ h0, word_sle _ h1]; rfl

/-- The conjunction over the unit axis is 1 at every row. -/
theorem guardRow_apply (d : IVec S1200000 32) (hd : ∀ i : S1200000.Idx, 0 ≤ (d i).toInt ∧ (d i).toInt < 50000)
    (r : S1200000.Idx) :
    Host.reduce IntOp.andi
      (andi (cmpi .sge (wrapIdx d) (broadcastInDim S1200000x1 ![] bcast_S_S1200000x1 (constantI S_ 32 0#32)))
        (cmpi .sle (wrapIdx d)
          (broadcastInDim S1200000x1 ![0, 1] bcast_S1x1_S1200000x1_0_1 (broadcastInDim S1x1 ![1] bcast_S1_S1x1_1 (constantI S1 32 49999#32)))))
      (constantI S_ 1 1#1) reducesTo_S1200000x1_S1200000_d1 h_S_ r = 1#1 := by
  rw [Host.reduce_eq_foldl]
  exact foldl_andi_one _ _ fun n _ => guard_apply d hd n

/-- With every index a node index the guard passes everywhere: the guarded lookup is the plain one. -/
theorem takeRows_eq_gather (h : FVec Ideal S50000x64 .f32) (d : IVec S1200000 32)
    (hd : ∀ i : S1200000.Idx, 0 ≤ (d i).toInt ∧ (d i).toInt < 50000) :
    takeRows h d = Host.gather gather_S50000x64_S1200000x1_S1200000x64_1_0_n_n_0_1_164 h (wrapIdx d) := by
  funext j
  unfold takeRows
  simp only [select]
  -- the mask at (row, column) is the row's conjunction, which is 1
  have hm : ∀ (c : IVec S1200000 1), (∀ r, c r = 1#1) →
      broadcastInDim S1200000x64 ![0] bcast_S1200000_S1200000x64_0 c j = 1#1 := fun c hc => hc _
  rw [hm _ (guardRow_apply d hd)]
  rfl

theorem srcIdx_range (x2 : IVec S2x1200000 32) (hr : InRange x2) :
    ∀ i : S1200000.Idx, 0 ≤ (srcIdx x2 i).toInt ∧ (srcIdx x2 i).toInt < 50000 := by
  -- a slice then a reshape only re-index: the entry is an entry of the edge list
  intro i
  exact hr _

theorem dstIdx_range (x2 : IVec S2x1200000 32) (hr : InRange x2) :
    ∀ i : S1200000.Idx, 0 ≤ (dstIdx x2 i).toInt ∧ (dstIdx x2 i).toInt < 50000 := by
  intro i
  exact hr _

/-- The kernel's lookup by destination is the reference's gathered stage h[dst]. -/
theorem take_dst (x0 : (⟨Cert.ReferenceIdeal.S50000x5, .f32⟩ : BufTy).Contents (Elt Ideal)) (x2 : (⟨Cert.ReferenceIdeal.S2x1200000, .i32⟩ : BufTy).Contents (Elt Ideal)) (x3 : (⟨Cert.ReferenceIdeal.S5x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (hr : InRange x2)
    (h : FVec Ideal S50000x64 .f32) (hh : h = Cert.ReferenceIdeal.Read.val_main_v8 (F := Ideal) x0 x3 x4 x5 x6) :
    takeRows h (dstIdx x2) = Cert.ReferenceIdeal.Read.val_main_v23 (F := Ideal) x0 x2 x3 x4 x5 x6 := by
  subst hh
  rw [takeRows_eq_gather _ _ (dstIdx_range x2 hr)]
  -- the reference spells the same wrap of row 1 and the same lookup, one operation at a time
  rfl

/-- The kernel's lookup by source is the reference's gathered stage h[src]. -/
theorem take_src (x0 : (⟨Cert.ReferenceIdeal.S50000x5, .f32⟩ : BufTy).Contents (Elt Ideal)) (x2 : (⟨Cert.ReferenceIdeal.S2x1200000, .i32⟩ : BufTy).Contents (Elt Ideal)) (x3 : (⟨Cert.ReferenceIdeal.S5x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (hr : InRange x2)
    (h : FVec Ideal S50000x64 .f32) (hh : h = Cert.ReferenceIdeal.Read.val_main_v8 (F := Ideal) x0 x3 x4 x5 x6) :
    takeRows h (srcIdx x2) = Cert.ReferenceIdeal.Read.val_main_v30 (F := Ideal) x0 x2 x3 x4 x5 x6 := by
  subst hh
  rw [takeRows_eq_gather _ _ (srcIdx_range x2 hr)]
  rfl

end Cert.KernelIdeal.TakeRows

end
-- ==== Proof.HostGlue.lean ====
/-
  The host stretches between the regions, read as values. Between region 0 and region 1 the program slices the edge list
  into its two rows and looks the node encoding up by each (the guarded lookup); between region 1 and region 2 it
  sums the messages by destination, counts them, and divides: the mean aggregate. Every other buffer passes through.
-/
import proofs.«406139_j54039278518761_1_alg».proof.Proof.Gen.KernelIdeal.Frame
import proofs.«406139_j54039278518761_1_alg».proof.Proof.Gen.ReferenceIdeal.Read
import proofs.«406139_j54039278518761_1_alg».proof.Proof.TakeRows

set_option maxRecDepth 16384

noncomputable section

namespace Cert.KernelIdeal.HostGlue

open Cert.KernelIdeal Cert.KernelIdeal.Gen Cert.KernelIdeal.TakeRows
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## After region 0 -/

/-- The node encoding's buffer after region 0 holds what the region's write-backs leave. -/
theorem W1_v0 (c : Dev nD) : W1 m ρ c (Proc.devRef .tc main_v0) = (dat0 (V0 m ρ) c).arrAt 5 cfg0.N :=
  W1_arr m ρ c 5

/-- Region 0 does not touch the edge list. -/
theorem W1_arg2 (c : Dev nD) : W1 m ρ c (Proc.devRef .tc main_arg2) = m ((c : Thread nD τ).loc main_arg2) :=
  W1_of_ne m ρ c main_arg2 (by decide)

/-! ## At region 1's entry -/

/-- Reading back, through a typed reference, what was stored through it. -/
theorem readBack {T : BufTy} (x : StableHlo.TRef sig T) (v : T.Contents (Elt Ideal)) : x.ofBuf (x.toBuf v) = v := by
  obtain ⟨r, rfl, h2, h3⟩ := x
  rfl

/-! ### The lookupDst lookup stretch, step by step (`V` below is the contents after the whole stretch) -/

/-- The two range compares of the wrapped index, joined. -/
theorem lookupDst_cmp (U : Valuation τ sig (Elt Ideal)) :
    (TRef.of main_call0_v11 : TRef sig ⟨S1200000x1, .i1⟩).ofBuf (StableHlo.after hostOps1_1 U (Proc.devRef .tc main_call0_v11))
      = andi (cmpi .sge (wrapIdx (U (Proc.devRef .tc main_v4))) (broadcastInDim S1200000x1 ![] bcast_S_S1200000x1 (constantI S_ 32 0#32)))
          (cmpi .sle (wrapIdx (U (Proc.devRef .tc main_v4)))
            (broadcastInDim S1200000x1 ![0, 1] bcast_S1x1_S1200000x1_0_1 (broadcastInDim S1x1 ![1] bcast_S1_S1x1_1 (constantI S1 32 49999#32)))) := by
  after_results_simp
  rfl

/-- The reduction's initial value. -/
theorem lookupDst_one (U : Valuation τ sig (Elt Ideal)) :
    (TRef.of main_call0_c_3 : TRef sig ⟨S_, .i1⟩).ofBuf (StableHlo.after hostOps1_1 U (Proc.devRef .tc main_call0_c_3))
      = constantI S_ 1 1#1 := by
  after_results_simp
  rfl

/-- The unguarded rows. -/
theorem lookupDst_rows (U : Valuation τ sig (Elt Ideal)) :
    (TRef.of main_call0_v13 : TRef sig ⟨S1200000x64, .f32⟩).ofBuf (StableHlo.after hostOps1_1 U (Proc.devRef .tc main_call0_v13))
      = Host.gather gather_S50000x64_S1200000x1_S1200000x64_1_0_n_n_0_1_164 (U (Proc.devRef .tc main_v0)) (wrapIdx (U (Proc.devRef .tc main_v4))) := by
  after_results_simp
  rfl

/-- The filler. -/
theorem lookupDst_fill (U : Valuation τ sig (Elt Ideal)) :
    (TRef.of main_call0_v15 : TRef sig ⟨S1200000x64, .f32⟩).ofBuf (StableHlo.after hostOps1_1 U (Proc.devRef .tc main_call0_v15))
      = broadcastInDim S1200000x64 ![] bcast_S_S1200000x64 (constant (F := Ideal) S_ .f32 0x7FC00000#32) := by
  after_results_simp
  rfl

/-- The guard per row: the and-reduction, over what the stretch left in its operands' buffers. -/
theorem lookupDst_guard (U : Valuation τ sig (Elt Ideal)) :
    StableHlo.after hostOps1_1 U (Proc.devRef .tc main_call0_v12)
      = (TRef.of main_call0_v12 : TRef sig ⟨S1200000, .i1⟩).toBuf
          (Host.reduce IntOp.andi
            ((TRef.of main_call0_v11 : TRef sig ⟨S1200000x1, .i1⟩).ofBuf (StableHlo.after hostOps1_1 U (Proc.devRef .tc main_call0_v11)))
            ((TRef.of main_call0_c_3 : TRef sig ⟨S_, .i1⟩).ofBuf (StableHlo.after hostOps1_1 U (Proc.devRef .tc main_call0_c_3)))
            reducesTo_S1200000x1_S1200000_d1 h_S_) := by
  after_results_simp

/-- The guard along the columns. -/
theorem lookupDst_mask (U : Valuation τ sig (Elt Ideal)) :
    StableHlo.after hostOps1_1 U (Proc.devRef .tc main_call0_v14)
      = (TRef.of main_call0_v14 : TRef sig ⟨S1200000x64, .i1⟩).toBuf
          (broadcastInDim S1200000x64 ![0] bcast_S1200000_S1200000x64_0
            ((TRef.of main_call0_v12 : TRef sig ⟨S1200000, .i1⟩).ofBuf (StableHlo.after hostOps1_1 U (Proc.devRef .tc main_call0_v12)))) := by
  after_results_simp

/-- The result: rows where the guard passes, the filler elsewhere. -/
theorem lookupDst_select (U : Valuation τ sig (Elt Ideal)) :
    StableHlo.after hostOps1_1 U (Proc.devRef .tc main_v5)
      = (TRef.of main_v5 : TRef sig ⟨S1200000x64, .f32⟩).toBuf
          (select
            ((TRef.of main_call0_v14 : TRef sig ⟨S1200000x64, .i1⟩).ofBuf (StableHlo.after hostOps1_1 U (Proc.devRef .tc main_call0_v14)))
            ((TRef.of main_call0_v13 : TRef sig ⟨S1200000x64, .f32⟩).ofBuf (StableHlo.after hostOps1_1 U (Proc.devRef .tc main_call0_v13)))
            ((TRef.of main_call0_v15 : TRef sig ⟨S1200000x64, .f32⟩).ofBuf (StableHlo.after hostOps1_1 U (Proc.devRef .tc main_call0_v15)))) := by
  after_results_simp

/-- The lookupDst lookup stretch over any contents: its result, read through its typed reference, is the guarded lookup of
    the node table's buffer by the row's buffer. -/
theorem lookupDst_read (U : Valuation τ sig (Elt Ideal)) :
    (TRef.of main_v5 : TRef sig ⟨S1200000x64, .f32⟩).ofBuf (StableHlo.after hostOps1_1 U (Proc.devRef .tc main_v5))
      = takeRows (U (Proc.devRef .tc main_v0)) (U (Proc.devRef .tc main_v4)) := by
  rw [lookupDst_select, readBack, lookupDst_mask, readBack, lookupDst_guard, readBack, lookupDst_cmp, lookupDst_one, lookupDst_rows, lookupDst_fill]
  unfold takeRows
  with_reducible rfl

/-- The same, at the buffer's own type. -/
theorem lookupDst_after (U : Valuation τ sig (Elt Ideal)) :
    StableHlo.after hostOps1_1 U (Proc.devRef .tc main_v5)
      = takeRows (U (Proc.devRef .tc main_v0)) (U (Proc.devRef .tc main_v4)) :=
  lookupDst_read U

/-! ### The lookupSrc lookup stretch, step by step (`V` below is the contents after the whole stretch) -/

/-- The two range compares of the wrapped index, joined. -/
theorem lookupSrc_cmp (U : Valuation τ sig (Elt Ideal)) :
    (TRef.of main_call1_v11 : TRef sig ⟨S1200000x1, .i1⟩).ofBuf (StableHlo.after hostOps1_2 U (Proc.devRef .tc main_call1_v11))
      = andi (cmpi .sge (wrapIdx (U (Proc.devRef .tc main_v2))) (broadcastInDim S1200000x1 ![] bcast_S_S1200000x1 (constantI S_ 32 0#32)))
          (cmpi .sle (wrapIdx (U (Proc.devRef .tc main_v2)))
            (broadcastInDim S1200000x1 ![0, 1] bcast_S1x1_S1200000x1_0_1 (broadcastInDim S1x1 ![1] bcast_S1_S1x1_1 (constantI S1 32 49999#32)))) := by
  after_results_simp
  rfl

/-- The reduction's initial value. -/
theorem lookupSrc_one (U : Valuation τ sig (Elt Ideal)) :
    (TRef.of main_call1_c_3 : TRef sig ⟨S_, .i1⟩).ofBuf (StableHlo.after hostOps1_2 U (Proc.devRef .tc main_call1_c_3))
      = constantI S_ 1 1#1 := by
  after_results_simp
  rfl

/-- The unguarded rows. -/
theorem lookupSrc_rows (U : Valuation τ sig (Elt Ideal)) :
    (TRef.of main_call1_v13 : TRef sig ⟨S1200000x64, .f32⟩).ofBuf (StableHlo.after hostOps1_2 U (Proc.devRef .tc main_call1_v13))
      = Host.gather gather_S50000x64_S1200000x1_S1200000x64_1_0_n_n_0_1_164 (U (Proc.devRef .tc main_v0)) (wrapIdx (U (Proc.devRef .tc main_v2))) := by
  after_results_simp
  rfl

/-- The filler. -/
theorem lookupSrc_fill (U : Valuation τ sig (Elt Ideal)) :
    (TRef.of main_call1_v15 : TRef sig ⟨S1200000x64, .f32⟩).ofBuf (StableHlo.after hostOps1_2 U (Proc.devRef .tc main_call1_v15))
      = broadcastInDim S1200000x64 ![] bcast_S_S1200000x64 (constant (F := Ideal) S_ .f32 0x7FC00000#32) := by
  after_results_simp
  rfl

/-- The guard per row: the and-reduction, over what the stretch left in its operands' buffers. -/
theorem lookupSrc_guard (U : Valuation τ sig (Elt Ideal)) :
    StableHlo.after hostOps1_2 U (Proc.devRef .tc main_call1_v12)
      = (TRef.of main_call1_v12 : TRef sig ⟨S1200000, .i1⟩).toBuf
          (Host.reduce IntOp.andi
            ((TRef.of main_call1_v11 : TRef sig ⟨S1200000x1, .i1⟩).ofBuf (StableHlo.after hostOps1_2 U (Proc.devRef .tc main_call1_v11)))
            ((TRef.of main_call1_c_3 : TRef sig ⟨S_, .i1⟩).ofBuf (StableHlo.after hostOps1_2 U (Proc.devRef .tc main_call1_c_3)))
            reducesTo_S1200000x1_S1200000_d1 h_S_) := by
  after_results_simp

/-- The guard along the columns. -/
theorem lookupSrc_mask (U : Valuation τ sig (Elt Ideal)) :
    StableHlo.after hostOps1_2 U (Proc.devRef .tc main_call1_v14)
      = (TRef.of main_call1_v14 : TRef sig ⟨S1200000x64, .i1⟩).toBuf
          (broadcastInDim S1200000x64 ![0] bcast_S1200000_S1200000x64_0
            ((TRef.of main_call1_v12 : TRef sig ⟨S1200000, .i1⟩).ofBuf (StableHlo.after hostOps1_2 U (Proc.devRef .tc main_call1_v12)))) := by
  after_results_simp

/-- The result: rows where the guard passes, the filler elsewhere. -/
theorem lookupSrc_select (U : Valuation τ sig (Elt Ideal)) :
    StableHlo.after hostOps1_2 U (Proc.devRef .tc main_v6)
      = (TRef.of main_v6 : TRef sig ⟨S1200000x64, .f32⟩).toBuf
          (select
            ((TRef.of main_call1_v14 : TRef sig ⟨S1200000x64, .i1⟩).ofBuf (StableHlo.after hostOps1_2 U (Proc.devRef .tc main_call1_v14)))
            ((TRef.of main_call1_v13 : TRef sig ⟨S1200000x64, .f32⟩).ofBuf (StableHlo.after hostOps1_2 U (Proc.devRef .tc main_call1_v13)))
            ((TRef.of main_call1_v15 : TRef sig ⟨S1200000x64, .f32⟩).ofBuf (StableHlo.after hostOps1_2 U (Proc.devRef .tc main_call1_v15)))) := by
  after_results_simp

/-- The lookupSrc lookup stretch over any contents: its result, read through its typed reference, is the guarded lookup of
    the node table's buffer by the row's buffer. -/
theorem lookupSrc_read (U : Valuation τ sig (Elt Ideal)) :
    (TRef.of main_v6 : TRef sig ⟨S1200000x64, .f32⟩).ofBuf (StableHlo.after hostOps1_2 U (Proc.devRef .tc main_v6))
      = takeRows (U (Proc.devRef .tc main_v0)) (U (Proc.devRef .tc main_v2)) := by
  rw [lookupSrc_select, readBack, lookupSrc_mask, readBack, lookupSrc_guard, readBack, lookupSrc_cmp, lookupSrc_one, lookupSrc_rows, lookupSrc_fill]
  unfold takeRows
  with_reducible rfl

/-- The same, at the buffer's own type. -/
theorem lookupSrc_after (U : Valuation τ sig (Elt Ideal)) :
    StableHlo.after hostOps1_2 U (Proc.devRef .tc main_v6)
      = takeRows (U (Proc.devRef .tc main_v0)) (U (Proc.devRef .tc main_v2)) :=
  lookupSrc_read U

/-- The slicing stretch over any contents: the two rows of the edge list. -/
theorem rows_after (U : Valuation τ sig (Elt Ideal)) :
    StableHlo.after hostOps1 U (Proc.devRef .tc main_v4) = dstIdx (U (Proc.devRef .tc main_arg2))
    ∧ StableHlo.after hostOps1 U (Proc.devRef .tc main_v2) = srcIdx (U (Proc.devRef .tc main_arg2))
    ∧ StableHlo.after hostOps1 U (Proc.devRef .tc main_v0) = U (Proc.devRef .tc main_v0) := by
  refine ⟨?_, ?_, ?_⟩
  · after_results_simp
    rfl
  · after_results_simp
    rfl
  · after_results_simp

/-- What the stretches leave alone. -/
theorem lookupDst_keeps (U : Valuation τ sig (Elt Ideal)) :
    StableHlo.after hostOps1_1 U (Proc.devRef .tc main_v0) = U (Proc.devRef .tc main_v0)
    ∧ StableHlo.after hostOps1_1 U (Proc.devRef .tc main_v2) = U (Proc.devRef .tc main_v2)
    ∧ StableHlo.after hostOps1_1 U (Proc.devRef .tc main_v4) = U (Proc.devRef .tc main_v4) := by
  refine ⟨?_, ?_, ?_⟩ <;> after_results_simp

theorem lookupSrc_keeps (U : Valuation τ sig (Elt Ideal)) :
    StableHlo.after hostOps1_2 U (Proc.devRef .tc main_v5) = U (Proc.devRef .tc main_v5)
    ∧ StableHlo.after hostOps1_2 U (Proc.devRef .tc main_v4) = U (Proc.devRef .tc main_v4)
    ∧ StableHlo.after hostOps1_2 U (Proc.devRef .tc main_v0) = U (Proc.devRef .tc main_v0) := by
  refine ⟨?_, ?_, ?_⟩ <;> after_results_simp

/-- The lookup by destination, over what region 0 left. -/
theorem W4_v5 (c : Dev nD) :
    W4 m ρ c (Proc.devRef .tc main_v5)
      = takeRows (W1 m ρ c (Proc.devRef .tc main_v0)) (dstIdx (W1 m ρ c (Proc.devRef .tc main_arg2))) := by
  show StableHlo.after hostOps1_2 (StableHlo.after hostOps1_1 (StableHlo.after hostOps1 (W1 m ρ c))) (Proc.devRef .tc main_v5) = _
  rw [(lookupSrc_keeps _).1, lookupDst_after, (rows_after _).1, (rows_after _).2.2]

/-- The lookup by source, over what region 0 left. -/
theorem W4_v6 (c : Dev nD) :
    W4 m ρ c (Proc.devRef .tc main_v6)
      = takeRows (W1 m ρ c (Proc.devRef .tc main_v0)) (srcIdx (W1 m ρ c (Proc.devRef .tc main_arg2))) := by
  show StableHlo.after hostOps1_2 (StableHlo.after hostOps1_1 (StableHlo.after hostOps1 (W1 m ρ c))) (Proc.devRef .tc main_v6) = _
  rw [lookupSrc_after, (lookupDst_keeps _).1, (lookupDst_keeps _).2.1, (rows_after _).2.1, (rows_after _).2.2]

/-- The destination row survives to region 1's entry. -/
theorem W4_v4 (c : Dev nD) :
    W4 m ρ c (Proc.devRef .tc main_v4) = dstIdx (W1 m ρ c (Proc.devRef .tc main_arg2)) := by
  show StableHlo.after hostOps1_2 (StableHlo.after hostOps1_1 (StableHlo.after hostOps1 (W1 m ρ c))) (Proc.devRef .tc main_v4) = _
  rw [(lookupSrc_keeps _).2.1, (lookupDst_keeps _).2.2, (rows_after _).1]

/-- The node encoding survives to region 1's entry. -/
theorem W4_v0 (c : Dev nD) : W4 m ρ c (Proc.devRef .tc main_v0) = W1 m ρ c (Proc.devRef .tc main_v0) := by
  show StableHlo.after hostOps1_2 (StableHlo.after hostOps1_1 (StableHlo.after hostOps1 (W1 m ρ c))) (Proc.devRef .tc main_v0) = _
  after_results_simp

theorem W4_arg1 (c : Dev nD) : W4 m ρ c (Proc.devRef .tc main_arg1) = m ((c : Thread nD τ).loc main_arg1) := by
  show StableHlo.after hostOps1_2 (StableHlo.after hostOps1_1 (StableHlo.after hostOps1 (W1 m ρ c))) (Proc.devRef .tc main_arg1) = _
  after_results_simp
  exact W1_of_ne m ρ c main_arg1 (by decide)

theorem W4_arg7 (c : Dev nD) : W4 m ρ c (Proc.devRef .tc main_arg7) = m ((c : Thread nD τ).loc main_arg7) := by
  show StableHlo.after hostOps1_2 (StableHlo.after hostOps1_1 (StableHlo.after hostOps1 (W1 m ρ c))) (Proc.devRef .tc main_arg7) = _
  after_results_simp
  exact W1_of_ne m ρ c main_arg7 (by decide)

theorem W4_arg8 (c : Dev nD) : W4 m ρ c (Proc.devRef .tc main_arg8) = m ((c : Thread nD τ).loc main_arg8) := by
  show StableHlo.after hostOps1_2 (StableHlo.after hostOps1_1 (StableHlo.after hostOps1 (W1 m ρ c))) (Proc.devRef .tc main_arg8) = _
  after_results_simp
  exact W1_of_ne m ρ c main_arg8 (by decide)

theorem W4_arg9 (c : Dev nD) : W4 m ρ c (Proc.devRef .tc main_arg9) = m ((c : Thread nD τ).loc main_arg9) := by
  show StableHlo.after hostOps1_2 (StableHlo.after hostOps1_1 (StableHlo.after hostOps1 (W1 m ρ c))) (Proc.devRef .tc main_arg9) = _
  after_results_simp
  exact W1_of_ne m ρ c main_arg9 (by decide)

theorem W4_arg10 (c : Dev nD) : W4 m ρ c (Proc.devRef .tc main_arg10) = m ((c : Thread nD τ).loc main_arg10) := by
  show StableHlo.after hostOps1_2 (StableHlo.after hostOps1_1 (StableHlo.after hostOps1 (W1 m ρ c))) (Proc.devRef .tc main_arg10) = _
  after_results_simp
  exact W1_of_ne m ρ c main_arg10 (by decide)

theorem W4_arg11 (c : Dev nD) : W4 m ρ c (Proc.devRef .tc main_arg11) = m ((c : Thread nD τ).loc main_arg11) := by
  show StableHlo.after hostOps1_2 (StableHlo.after hostOps1_1 (StableHlo.after hostOps1 (W1 m ρ c))) (Proc.devRef .tc main_arg11) = _
  after_results_simp
  exact W1_of_ne m ρ c main_arg11 (by decide)

theorem W4_arg12 (c : Dev nD) : W4 m ρ c (Proc.devRef .tc main_arg12) = m ((c : Thread nD τ).loc main_arg12) := by
  show StableHlo.after hostOps1_2 (StableHlo.after hostOps1_1 (StableHlo.after hostOps1 (W1 m ρ c))) (Proc.devRef .tc main_arg12) = _
  after_results_simp
  exact W1_of_ne m ρ c main_arg12 (by decide)

theorem W4_arg13 (c : Dev nD) : W4 m ρ c (Proc.devRef .tc main_arg13) = m ((c : Thread nD τ).loc main_arg13) := by
  show StableHlo.after hostOps1_2 (StableHlo.after hostOps1_1 (StableHlo.after hostOps1 (W1 m ρ c))) (Proc.devRef .tc main_arg13) = _
  after_results_simp
  exact W1_of_ne m ρ c main_arg13 (by decide)

theorem W4_arg14 (c : Dev nD) : W4 m ρ c (Proc.devRef .tc main_arg14) = m ((c : Thread nD τ).loc main_arg14) := by
  show StableHlo.after hostOps1_2 (StableHlo.after hostOps1_1 (StableHlo.after hostOps1 (W1 m ρ c))) (Proc.devRef .tc main_arg14) = _
  after_results_simp
  exact W1_of_ne m ρ c main_arg14 (by decide)

theorem W4_arg15 (c : Dev nD) : W4 m ρ c (Proc.devRef .tc main_arg15) = m ((c : Thread nD τ).loc main_arg15) := by
  show StableHlo.after hostOps1_2 (StableHlo.after hostOps1_1 (StableHlo.after hostOps1 (W1 m ρ c))) (Proc.devRef .tc main_arg15) = _
  after_results_simp
  exact W1_of_ne m ρ c main_arg15 (by decide)

theorem W4_arg16 (c : Dev nD) : W4 m ρ c (Proc.devRef .tc main_arg16) = m ((c : Thread nD τ).loc main_arg16) := by
  show StableHlo.after hostOps1_2 (StableHlo.after hostOps1_1 (StableHlo.after hostOps1 (W1 m ρ c))) (Proc.devRef .tc main_arg16) = _
  after_results_simp
  exact W1_of_ne m ρ c main_arg16 (by decide)

/-! ## At region 2's entry -/

/-- The node encoding survives to region 2's entry. -/
theorem W6_v0 (c : Dev nD) : W6 m ρ c (Proc.devRef .tc main_v0) = W1 m ρ c (Proc.devRef .tc main_v0) := by
  show StableHlo.after hostOps2 (W5 m ρ c) (Proc.devRef .tc main_v0) = _
  after_results_simp
  exact (W5_of_ne m ρ c main_v0 (by decide)).trans (W4_v0 m ρ c)

/-- The message array after region 1 holds what the region's write-backs leave. -/
theorem W5_v7 (c : Dev nD) : W5 m ρ c (Proc.devRef .tc main_v7) = (dat1 (V4 m ρ) c).arrAt 9 cfg1.N :=
  W5_arr m ρ c 9

/-- The mean aggregate over what region 1 left: the messages summed by destination over the count, at least one. -/
theorem W6_v19 (c : Dev nD) :
    W6 m ρ c (Proc.devRef .tc main_v19)
      = Host.divf
          (Host.scatterAdd scatter_S50000x64_S1200000x1_S1200000x64_1_0_0_1
            (broadcastInDim S50000x64 ![] bcast_S_S50000x64 (constant (F := Ideal) S_ .f32 0x00000000#32))
            (broadcastInDim S1200000x1 ![0] bcast_S1200000_S1200000x1_0 (W5 m ρ c (Proc.devRef .tc main_v4)))
            (W5 m ρ c (Proc.devRef .tc main_v7)))
          (broadcastInDim S50000x64 ![0, 1] bcast_S50000x1_S50000x64_0_1
            (broadcastInDim S50000x1 ![0] bcast_S50000_S50000x1_0
              (maximumf
                (Host.scatterAdd scatter_S50000_S1200000x1_S1200000_n_0_0_1
                  (broadcastInDim S50000 ![] bcast_S_S50000 (constant (F := Ideal) S_ .f32 0x00000000#32))
                  (broadcastInDim S1200000x1 ![0] bcast_S1200000_S1200000x1_0 (W5 m ρ c (Proc.devRef .tc main_v4)))
                  (broadcastInDim S1200000 ![] bcast_S_S1200000 (constant (F := Ideal) S_ .f32 0x3F800000#32)))
                (broadcastInDim S50000 ![] bcast_S_S50000 (constant (F := Ideal) S_ .f32 0x3F800000#32))))) := by
  show StableHlo.after hostOps2 (W5 m ρ c) (Proc.devRef .tc main_v19) = _
  after_results_simp

theorem W6_arg13 (c : Dev nD) : W6 m ρ c (Proc.devRef .tc main_arg13) = m ((c : Thread nD τ).loc main_arg13) := by
  show StableHlo.after hostOps2 (W5 m ρ c) (Proc.devRef .tc main_arg13) = _
  after_results_simp
  exact (W5_of_ne m ρ c main_arg13 (by decide)).trans (W4_arg13 m ρ c)

theorem W6_arg14 (c : Dev nD) : W6 m ρ c (Proc.devRef .tc main_arg14) = m ((c : Thread nD τ).loc main_arg14) := by
  show StableHlo.after hostOps2 (W5 m ρ c) (Proc.devRef .tc main_arg14) = _
  after_results_simp
  exact (W5_of_ne m ρ c main_arg14 (by decide)).trans (W4_arg14 m ρ c)

theorem W6_arg15 (c : Dev nD) : W6 m ρ c (Proc.devRef .tc main_arg15) = m ((c : Thread nD τ).loc main_arg15) := by
  show StableHlo.after hostOps2 (W5 m ρ c) (Proc.devRef .tc main_arg15) = _
  after_results_simp
  exact (W5_of_ne m ρ c main_arg15 (by decide)).trans (W4_arg15 m ρ c)

theorem W6_arg16 (c : Dev nD) : W6 m ρ c (Proc.devRef .tc main_arg16) = m ((c : Thread nD τ).loc main_arg16) := by
  show StableHlo.after hostOps2 (W5 m ρ c) (Proc.devRef .tc main_arg16) = _
  after_results_simp
  exact (W5_of_ne m ρ c main_arg16 (by decide)).trans (W4_arg16 m ρ c)

end Cert.KernelIdeal.HostGlue

end
-- ==== Proof.Region0.lean ====
/-
  Region 0 (the node encoder), read as a value: the array its write-backs leave is the reference's node encoder,
  relu(x·Wn1 + bn1)·Wn2 + bn2, of the arrays the region finds, index by index.
-/
import proofs.«406139_j54039278518761_1_alg».proof.Proof.Gen.KernelIdeal.Frame
import proofs.«406139_j54039278518761_1_alg».proof.Proof.Gen.ReferenceIdeal.Read
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.NodeEncoder

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix1 ix2)

-- the TensorCore's buffer contents when the region is entered
variable (V : (c : Dev nD) → (b : Ref sig .tc) → Buf (Elt Ideal) ((c : Thread nD τ).loc b))

/-! ## The body's stored value at an index

The two matrix products contract one axis each; the four facts below say which coordinate of an operand's index is the
output's and which is the contracted one, and the product at an index is then a sum over the contracted coordinate. -/

theorem xW1_lhs_0 (i : S5000x64.Idx) (q : dot_S5000x5_S5x64_S5000x64_1_0_0_1_n_n.contr.Idx) :
    (dot_S5000x5_S5x64_S5000x64_1_0_0_1_n_n.lhsIdx i q 0).val = (i 0).val := by
  unfold DotDims.lhsIdx
  rw [dif_neg (show ¬(0 : Fin S5000x5.rank) ∈ dot_S5000x5_S5x64_S5000x64_1_0_0_1_n_n.lhsBatch by decide), dif_pos (show (0 : Fin S5000x5.rank) ∈ dot_S5000x5_S5x64_S5000x64_1_0_0_1_n_n.lhsNonContracting by decide)]
  rfl
theorem xW1_lhs_1 (i : S5000x64.Idx) (q : dot_S5000x5_S5x64_S5000x64_1_0_0_1_n_n.contr.Idx) :
    (dot_S5000x5_S5x64_S5000x64_1_0_0_1_n_n.lhsIdx i q 1).val = (q ⟨0, by decide⟩).val :=
  dot_S5000x5_S5x64_S5000x64_1_0_0_1_n_n.lhsIdx_val_of_single rfl i q
theorem xW1_rhs_0 (i : S5000x64.Idx) (q : dot_S5000x5_S5x64_S5000x64_1_0_0_1_n_n.contr.Idx) :
    (dot_S5000x5_S5x64_S5000x64_1_0_0_1_n_n.rhsIdx i q 0).val = (q ⟨0, by decide⟩).val :=
  dot_S5000x5_S5x64_S5000x64_1_0_0_1_n_n.rhsIdx_val_of_single rfl i q
theorem xW1_rhs_1 (i : S5000x64.Idx) (q : dot_S5000x5_S5x64_S5000x64_1_0_0_1_n_n.contr.Idx) :
    (dot_S5000x5_S5x64_S5000x64_1_0_0_1_n_n.rhsIdx i q 1).val = (i 1).val := by
  unfold DotDims.rhsIdx
  rw [dif_neg (show ¬(1 : Fin S5x64.rank) ∈ dot_S5000x5_S5x64_S5000x64_1_0_0_1_n_n.rhsBatch by decide), dif_pos (show (1 : Fin S5x64.rank) ∈ dot_S5000x5_S5x64_S5000x64_1_0_0_1_n_n.rhsNonContracting by decide)]
  rfl

/-- The first product, rows of x against columns of Wn1, at an index: the sum over the 5 input features. -/
theorem xW1_apply (a : FVec Ideal S5000x5 .bf16) (b : FVec Ideal S5x64 .bf16) (p : Fin 5000) (q : Fin 64) :
    matmul dot_S5000x5_S5x64_S5000x64_1_0_0_1_n_n none a b (constant (F := Ideal) S5000x64 .f32 0x00000000#32) (ix2 p q)
      = ∑ k : Fin 5, a (ix2 p k) * b (ix2 k q) := by
  show FloatOps.matmul dot_S5000x5_S5x64_S5000x64_1_0_0_1_n_n none a b (constant (F := Ideal) S5000x64 .f32 0x00000000#32) (ix2 p q) = _
  rw [Ideal.matmul_constant_zero_apply, ← Equiv.sum_comp (ValueIdx.contrEquiv1 dot_S5000x5_S5x64_S5000x64_1_0_0_1_n_n 5 rfl rfl).symm]
  refine Finset.sum_congr rfl fun k _ => ?_
  have hk := ValueIdx.contrEquiv1_symm_val dot_S5000x5_S5x64_S5000x64_1_0_0_1_n_n 5 rfl rfl k
  have el : dot_S5000x5_S5x64_S5000x64_1_0_0_1_n_n.lhsIdx (ix2 p q) ((ValueIdx.contrEquiv1 dot_S5000x5_S5x64_S5000x64_1_0_0_1_n_n 5 rfl rfl).symm k) = ix2 p k := funext fun ax => Fin.ext (by
    match ax with
    | ⟨0, _⟩ => exact xW1_lhs_0 _ _
    | ⟨1, _⟩ => exact (xW1_lhs_1 _ _).trans hk)
  have er : dot_S5000x5_S5x64_S5000x64_1_0_0_1_n_n.rhsIdx (ix2 p q) ((ValueIdx.contrEquiv1 dot_S5000x5_S5x64_S5000x64_1_0_0_1_n_n 5 rfl rfl).symm k) = ix2 k q := funext fun ax => Fin.ext (by
    match ax with
    | ⟨0, _⟩ => exact (xW1_rhs_0 _ _).trans hk
    | ⟨1, _⟩ => exact xW1_rhs_1 _ _)
  rw [el, er]

theorem hW2_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem hW2_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem hW2_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem hW2_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The second product, hidden rows against columns of Wn2, at an index: the sum over the 64 hidden units. -/
theorem hW2_apply (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  show FloatOps.matmul dot_S5000x64_S64x64_S5000x64_1_0_0_1_n_n none a b (constant (F := Ideal) S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun ax => Fin.ext (by
    match ax with
    | ⟨0, _⟩ => exact hW2_lhs_0 _ _
    | ⟨1, _⟩ => exact (hW2_lhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun ax => Fin.ext (by
    match ax with
    | ⟨0, _⟩ => exact (hW2_rhs_0 _ _).trans hk
    | ⟨1, _⟩ => exact hW2_rhs_1 _ _)
  rw [el, er]

/-- A bias vector [64], viewed as one row [1, 64] and repeated down the 5000 rows, reads at (p, q) the bias at q. -/
theorem bias_apply (b : Vec Ideal S64 .f32) (h1 : S64.ShapeCasts S1x64) (h2 : S1x64.Broadcasts S5000x64) (p : Fin 5000) (q : Fin 64) :
    broadcastTo S5000x64 (shapeCast S1x64 b h1) h2 (ix2 p q) = b (ix1 q) := by
  rw [ValueIdx.broadcastTo_1b_ab_apply, ValueIdx.shapeCast_a_1a_apply]

/-- The value the body stores at row p, column q of its block: the hidden layer max(Σ_l x[p,l]·Wn1[l,k] + bn1[k], 0)
    against column q of Wn2, plus bn2[q] (the conversions to the matrix unit's format are the identity on extended reals). -/
theorem encode_apply (x : Vec Ideal S5000x5 .f32) (w1 : Vec Ideal S5x64 .f32) (b1 : Vec Ideal S64 .f32) (w2 : Vec Ideal S64x64 .f32)
    (b2 : Vec Ideal S64 .f32) (p : Fin 5000) (q : Fin 64) :
    k0_pay1 (F := Ideal) x w1 b1 w2 b2 (ix2 p q)
      = (∑ k : Fin 64, max ((∑ l : Fin 5, x (ix2 p l) * w1 (ix2 l k)) + b1 (ix1 k)) 0 * w2 (ix2 k q)) + b2 (ix1 q) := by
  unfold k0_pay1
  simp only [ValueIdx.addf_apply, ValueIdx.truncf_apply, ValueIdx.maximumf_apply, ValueIdx.broadcast_apply, hW2_apply, xW1_apply,
    Ideal.ofBits_def, Ideal.ofBits_zero_f32]
  refine congrArg₂ (· + ·) (Finset.sum_congr rfl fun k _ => ?_) (bias_apply b2 _ _ p q)
  rw [bias_apply b1 _ _ p k]

/-! ## The node encoder, index by index -/

/-- Row r, column q of relu(X·Wn1 + bn1)·Wn2 + bn2 as sums over the extended reals. -/
def encAt (X : Vec Ideal S50000x5 .f32) (W1 : Vec Ideal S5x64 .f32) (B1 : Vec Ideal S64 .f32) (W2 : Vec Ideal S64x64 .f32)
    (B2 : Vec Ideal S64 .f32) (r : Fin 50000) (q : Fin 64) : EReal :=
  (∑ k : Fin 64, max ((∑ l : Fin 5, X (ix2 r l) * W1 (ix2 l k)) + B1 (ix1 k)) 0 * W2 (ix2 k q)) + B2 (ix1 q)

/-- The whole [50000, 64] array of them. -/
def enc (X : Vec Ideal S50000x5 .f32) (W1 : Vec Ideal S5x64 .f32) (B1 : Vec Ideal S64 .f32) (W2 : Vec Ideal S64x64 .f32)
    (B2 : Vec Ideal S64 .f32) : Vec Ideal S50000x64 .f32 :=
  fun i => encAt X W1 B1 W2 B2 ⟨(i 0).val, (i 0).isLt⟩ ⟨(i 1).val, (i 1).isLt⟩

/-- A block of 5000 rows starting at row 5000·n, whose x-rows are the array's rows 5000·n + p, stores the encoder's rows
    5000·n + p: the body's value at (p, q) is the array's at (5000·n + p, q). -/
theorem block_value (x : Vec Ideal S5000x5 .f32) (X : Vec Ideal S50000x5 .f32) (W1 : Vec Ideal S5x64 .f32) (B1 : Vec Ideal S64 .f32)
    (W2 : Vec Ideal S64x64 .f32) (B2 : Vec Ideal S64 .f32) (n : Nat) (hn : n < 10)
    (hx : ∀ (p : Fin 5000) (l : Fin 5), x (ix2 p l) = X (ix2 (⟨5000 * n + p.val, by omega⟩ : Fin 50000) l))
    (j : S5000x64.Idx) (i : S50000x64.Idx) (hi0 : (i 0).val = 5000 * n + (j 0).val) (hi1 : (i 1).val = (j 1).val) :
    k0_pay1 (F := Ideal) x W1 B1 W2 B2 j = enc X W1 B1 W2 B2 i := by
  obtain ⟨p, q, rfl⟩ : ∃ (p : Fin 5000) (q : Fin 64), j = ix2 p q := ⟨j 0, j 1, ValueIdx.eq_ix2 j⟩
  rw [encode_apply]
  unfold enc encAt
  have e0 : (⟨(i 0).val, (i 0).isLt⟩ : Fin 50000) = ⟨5000 * n + p.val, by omega⟩ := Fin.ext hi0
  have e1 : (⟨(i 1).val, (i 1).isLt⟩ : Fin 64) = q := Fin.ext hi1
  rw [e0, e1]
  simp only [hx]

/-! ## From the blocks to the array -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid's 10 points: x's block and the output's block are block t of their arrays' rows; the two
    weight matrices and the two biases are staged whole at every point. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- x's block at point t is rows 5000·t … 5000·t + 4999 of x. -/
theorem xblk_apply (c : Dev nD) (t : Fin cfg0.N) (p : Fin 5000) (l : Fin 5) (ht : t.val < 10) :
    (iblk0 V c 0 t : Vec Ideal S5000x5 .f32) (ix2 p l)
      = (V c main_arg0 : Vec Ideal S50000x5 .f32) (ix2 (⟨5000 * t.val + p.val, by omega⟩ : Fin 50000) l) := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 5 + 1 * l.val = l.val; rw [e1]; omega

/-- Wn1's block at every point is all of Wn1. -/
theorem w1blk_eq (c : Dev nD) (t : Fin cfg0.N) : (iblk0 V c 1 t : Vec Ideal S5x64 .f32) = V c main_arg3 := by
  obtain ⟨-, -, e0, e1, -⟩ := index_facts t
  funext j
  unfold iblk0
  rw [View.read_apply]
  show V c main_arg3 _ = V c main_arg3 j
  congr 1
  funext a
  apply Fin.ext
  match a with
  | ⟨0, _⟩ => show win0_1.index t (0 : Fin 2) * 5 + 1 * (j 0).val = (j 0).val; rw [e0]; omega
  | ⟨1, _⟩ => show win0_1.index t (1 : Fin 2) * 64 + 1 * (j 1).val = (j 1).val; rw [e1]; omega

/-- bn1's block at every point is all of bn1. -/
theorem b1blk_eq (c : Dev nD) (t : Fin cfg0.N) : (iblk0 V c 2 t : Vec Ideal S64 .f32) = V c main_arg4 := by
  obtain ⟨-, -, -, -, e0, -⟩ := index_facts t
  funext j
  unfold iblk0
  rw [View.read_apply]
  show V c main_arg4 _ = V c main_arg4 j
  congr 1
  funext a
  apply Fin.ext
  match a with
  | ⟨0, _⟩ => show win0_2.index t (0 : Fin 1) * 64 + 1 * (j 0).val = (j 0).val; rw [e0]; omega

/-- Wn2's block at every point is all of Wn2. -/
theorem w2blk_eq (c : Dev nD) (t : Fin cfg0.N) : (iblk0 V c 3 t : Vec Ideal S64x64 .f32) = V c main_arg5 := by
  obtain ⟨-, -, -, -, -, e0, e1, -⟩ := index_facts t
  funext j
  unfold iblk0
  rw [View.read_apply]
  show V c main_arg5 _ = V c main_arg5 j
  congr 1
  funext a
  apply Fin.ext
  match a with
  | ⟨0, _⟩ => show win0_3.index t (0 : Fin 2) * 64 + 1 * (j 0).val = (j 0).val; rw [e0]; omega
  | ⟨1, _⟩ => show win0_3.index t (1 : Fin 2) * 64 + 1 * (j 1).val = (j 1).val; rw [e1]; omega

/-- bn2's block at every point is all of bn2. -/
theorem b2blk_eq (c : Dev nD) (t : Fin cfg0.N) : (iblk0 V c 4 t : Vec Ideal S64 .f32) = V c main_arg6 := by
  obtain ⟨-, -, -, -, -, -, -, e0, -⟩ := index_facts t
  funext j
  unfold iblk0
  rw [View.read_apply]
  show V c main_arg6 _ = V c main_arg6 j
  congr 1
  funext a
  apply Fin.ext
  match a with
  | ⟨0, _⟩ => show win0_4.index t (0 : Fin 1) * 64 + 1 * (j 0).val = (j 0).val; rw [e0]; omega

/-- The encoder of the arrays the region finds. -/
abbrev encV (c : Dev nD) : Vec Ideal S50000x64 .f32 :=
  enc (V c main_arg0) (V c main_arg3) (V c main_arg4) (V c main_arg5) (V c main_arg6)

/-- What point t writes back is block t of the encoder: rows 5000·t … 5000·t + 4999. -/
theorem flushed_eq (c : Dev nD) (t : Fin cfg0.N) :
    (dat0 (F := Ideal) V c).flushed 5 t = ((cfg0.win 5).blk t).view.read (Elt Ideal) (encV V c) := by
  have ht : t.val < 10 := lt_of_lt_of_eq t.isLt N_0
  obtain ⟨-, -, -, -, -, -, -, -, e0, e1⟩ := index_facts t
  show (cfg0.win 5).cut (grid0.coords t) ((dat0 (F := Ideal) V c).after 5 t) = _
  rw [after0_5]
  unfold out0_5
  rw [View.canon_unit_zero hz2]
  simp only [View.ld_unit_zero (S := S5000x5) hz2, View.ld_unit_zero (S := S5x64) hz2, View.ld_unit_zero (S := S64) hz1,
    View.ld_unit_zero (S := S64x64) hz2]
  rw [w1blk_eq, b1blk_eq, w2blk_eq, b2blk_eq]
  funext j
  rw [View.read_apply]
  refine block_value (iblk0 V c 0 t) (V c main_arg0) (V c main_arg3) (V c main_arg4) (V c main_arg5) (V c main_arg6) t.val ht
    (fun p l => xblk_apply V c t p l ht) _ _ ?_ ?_
  · show win0_5.index t (0 : Fin 2) * 5000 + 1 * (j 0).val = 5000 * t.val + (j 0).val
    rw [e0]; omega
  · show win0_5.index t (1 : Fin 2) * 64 + 1 * (j 1).val = (j 1).val
    rw [e1]; omega

/-- An index of the output array is in point t's block iff each coordinate is in the block's range on its axis. -/
theorem mem_blk (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v0).slice (win0_5.rect t)).set ↔ _
  rw [View.set_slice_whole, Rect.mem_set_unit]
  exact Iff.rfl

/-- Every row r of the output lies in a block: that of point r / 5000. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  obtain ⟨t, htv⟩ : ∃ t : Fin cfg0.N, t.val = (i 0).val / 5000 := ⟨⟨(i 0).val / 5000, by rw [hN]; omega⟩, rfl⟩
  obtain ⟨-, -, -, -, -, -, -, -, e0, e1⟩ := index_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, htv]; omega
  | ⟨1, _⟩ =>
    show win0_5.index t (1 : Fin 2) * 64 ≤ (i 1).val ∧ (i 1).val < win0_5.index t (1 : Fin 2) * 64 + 64
    rw [e1]; omega

/-- So the array the region's write-backs leave is the encoder of the arrays it found. -/
theorem array_eq (c : Dev nD) : (dat0 (F := Ideal) V c).arrAt 5 cfg0.N = encV V c :=
  (dat0 (F := Ideal) V c).arrAt_eq_of_cover 5 (encV V c) (fun t _ => flushed_eq V c t) cover

/-! ## The reference's stage is the same function

The reference reads its operands through composed index functions; at row i 0 and column i 1 of the output they are these
coordinates. -/

theorem ref_x_idx (i : S50000x64.Idx) (k : Fin 64) (l : Fin 5) :
    Cert.ReferenceIdeal.Read.lidx_main_v0 (Cert.ReferenceIdeal.Read.lidx_main_v5 i k) l
      = ix2 (⟨(i 0).val, (i 0).isLt⟩ : Fin 50000) l :=
  funext fun a => Fin.ext (by match a with | ⟨0, _⟩ => rfl | ⟨1, _⟩ => rfl)
theorem ref_w1_idx (i : S50000x64.Idx) (k : Fin 64) (l : Fin 5) :
    Cert.ReferenceIdeal.Read.ridx_main_v0 (Cert.ReferenceIdeal.Read.lidx_main_v5 i k) l = ix2 l k :=
  funext fun a => Fin.ext (by match a with | ⟨0, _⟩ => rfl | ⟨1, _⟩ => rfl)
theorem ref_b1_idx (i : S50000x64.Idx) (k : Fin 64) :
    Cert.ReferenceIdeal.Read.idx_main_v1 (Cert.ReferenceIdeal.Read.idx_main_v2 (Cert.ReferenceIdeal.Read.lidx_main_v5 i k)) = ix1 k :=
  funext fun a => Fin.ext (by match a with | ⟨0, _⟩ => rfl)
theorem ref_w2_idx (i : S50000x64.Idx) (k : Fin 64) :
    Cert.ReferenceIdeal.Read.ridx_main_v5 i k = ix2 k (⟨(i 1).val, (i 1).isLt⟩ : Fin 64) :=
  funext fun a => Fin.ext (by match a with | ⟨0, _⟩ => rfl | ⟨1, _⟩ => rfl)
theorem ref_b2_idx (i : S50000x64.Idx) :
    Cert.ReferenceIdeal.Read.idx_main_v6 (Cert.ReferenceIdeal.Read.idx_main_v7 i) = ix1 (⟨(i 1).val, (i 1).isLt⟩ : Fin 64) :=
  funext fun a => Fin.ext (by match a with | ⟨0, _⟩ => rfl)

/-- The reference's node-encoder stage, read at an index through its operations one by one, is the same sums. -/
theorem ref_eq (X : Vec Ideal S50000x5 .f32) (W1 : Vec Ideal S5x64 .f32) (B1 : Vec Ideal S64 .f32) (W2 : Vec Ideal S64x64 .f32)
    (B2 : Vec Ideal S64 .f32) :
    Cert.ReferenceIdeal.Read.val_main_v8 (F := Ideal) X W1 B1 W2 B2 = enc X W1 B1 W2 B2 := by
  funext i
  rw [Cert.ReferenceIdeal.Read.val_main_v8_apply, Cert.ReferenceIdeal.Read.val_main_v5_apply, Cert.ReferenceIdeal.Read.val_main_v7_apply,
    Cert.ReferenceIdeal.Read.val_main_v6_apply]
  simp only [Cert.ReferenceIdeal.Read.val_main_v4_apply, Cert.ReferenceIdeal.Read.val_main_v3_apply, Cert.ReferenceIdeal.Read.val_main_v0_apply,
    Cert.ReferenceIdeal.Read.val_main_v2_apply, Cert.ReferenceIdeal.Read.val_main_v1_apply, Cert.ReferenceIdeal.Read.val_main_call0_v0_apply,
    Cert.ReferenceIdeal.Read.val_main_call0_cst_apply, Ideal.addf_def, Ideal.maximumf_def, Ideal.ofBits_def, Ideal.ofBits_zero_f32,
    ref_x_idx, ref_w1_idx, ref_b1_idx, ref_w2_idx, ref_b2_idx]
  rfl

/-! ## The region's value -/

theorem region0_value (c : Dev nD) :
    (dat0 (F := Ideal) V c).arrAt 5 cfg0.N
      = Cert.ReferenceIdeal.Read.val_main_v8 (F := Ideal) (V c main_arg0) (V c main_arg3) (V c main_arg4) (V c main_arg5) (V c main_arg6) := by
  rw [ref_eq]
  exact array_eq V c

end Cert.KernelIdeal.NodeEncoder

end
-- ==== Proof.Region1Aux1.lean ====
/-
  Region 1 (edge encoder + message net), the arithmetic: one edge's message written on plain rows of extended reals
  (`msg`), and the value the body stores at row `p`, feature `q` of a block as that message of the block's row `p`.
  The three matrix products are read at an index as sums over their one contraction coordinate; the join of the three
  64-wide pieces is read at a column by the piece the column falls in.
-/
import proofs.«406139_j54039278518761_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeMessage

open Cert.KernelIdeal Cert.KernelIdeal.Gen
open Idealize.ShloMosaic Idealize.ShloMosaic.ValueIdx

/-! ## One edge's message, on plain rows of extended reals -/

/-- The 192-wide row the first message layer reads: the destination node's 64 features, the source node's 64, then the
    64 encoded edge attributes. -/
def catRow (a b e : Fin 64 → EReal) (l : Fin 192) : EReal :=
  if h : l.val < 64 then a ⟨l.val, h⟩
  else if h2 : l.val < 128 then b ⟨l.val - 64, by omega⟩
  else e ⟨l.val - 128, by have := l.isLt; omega⟩

/-- The edge encoder: the two edge attributes through a 2×64 matrix plus a bias. -/
def edgeEnc (ea : Fin 2 → EReal) (We : Fin 2 → Fin 64 → EReal) (be : Fin 64 → EReal) (j : Fin 64) : EReal :=
  (∑ m : Fin 2, ea m * We m j) + be j

/-- One edge's message at output feature `q`: relu(cat · W1 + b1) · W2 + b2, the row `cat` as above. -/
def msg (hd hs : Fin 64 → EReal) (ea : Fin 2 → EReal) (We : Fin 2 → Fin 64 → EReal) (be : Fin 64 → EReal)
    (W1 : Fin 192 → Fin 64 → EReal) (b1 : Fin 64 → EReal) (W2 : Fin 64 → Fin 64 → EReal) (b2 : Fin 64 → EReal)
    (q : Fin 64) : EReal :=
  (∑ k : Fin 64, max ((∑ l : Fin 192, catRow hd hs (edgeEnc ea We be) l * W1 l k) + b1 k) 0 * W2 k q) + b2 q

/-! ## The three matrix products of the body at an index

Each contracts the left operand's axis 1 with the right operand's axis 0, into a zero accumulator: at `(p, q)` the
sum over the one contraction coordinate of left `(p, k)` times right `(k, q)`. -/

theorem lhsEnc_0 (i : S8000x64.Idx) (q : dot_S8000x2_S2x64_S8000x64_1_0_0_1_n_n.contr.Idx) :
    (dot_S8000x2_S2x64_S8000x64_1_0_0_1_n_n.lhsIdx i q 0).val = (i 0).val := by
  unfold DotDims.lhsIdx
  rw [dif_neg (show ¬(0 : Fin S8000x2.rank) ∈ dot_S8000x2_S2x64_S8000x64_1_0_0_1_n_n.lhsBatch by decide), dif_pos (show (0 : Fin S8000x2.rank) ∈ dot_S8000x2_S2x64_S8000x64_1_0_0_1_n_n.lhsNonContracting by decide)]
  rfl
theorem lhsEnc_1 (i : S8000x64.Idx) (q : dot_S8000x2_S2x64_S8000x64_1_0_0_1_n_n.contr.Idx) :
    (dot_S8000x2_S2x64_S8000x64_1_0_0_1_n_n.lhsIdx i q 1).val = (q ⟨0, by decide⟩).val :=
  dot_S8000x2_S2x64_S8000x64_1_0_0_1_n_n.lhsIdx_val_of_single rfl i q
theorem rhsEnc_0 (i : S8000x64.Idx) (q : dot_S8000x2_S2x64_S8000x64_1_0_0_1_n_n.contr.Idx) :
    (dot_S8000x2_S2x64_S8000x64_1_0_0_1_n_n.rhsIdx i q 0).val = (q ⟨0, by decide⟩).val :=
  dot_S8000x2_S2x64_S8000x64_1_0_0_1_n_n.rhsIdx_val_of_single rfl i q
theorem rhsEnc_1 (i : S8000x64.Idx) (q : dot_S8000x2_S2x64_S8000x64_1_0_0_1_n_n.contr.Idx) :
    (dot_S8000x2_S2x64_S8000x64_1_0_0_1_n_n.rhsIdx i q 1).val = (i 1).val := by
  unfold DotDims.rhsIdx
  rw [dif_neg (show ¬(1 : Fin S2x64.rank) ∈ dot_S8000x2_S2x64_S8000x64_1_0_0_1_n_n.rhsBatch by decide), dif_pos (show (1 : Fin S2x64.rank) ∈ dot_S8000x2_S2x64_S8000x64_1_0_0_1_n_n.rhsNonContracting by decide)]
  rfl
theorem matmulEnc_apply {φ₁ φ₂ : FTy} (a : FVec Ideal S8000x2 φ₁) (b : FVec Ideal S2x64 φ₂) (p : Fin 8000) (q : Fin 64) :
    matmul (F := Ideal) dot_S8000x2_S2x64_S8000x64_1_0_0_1_n_n none a b (constant (F := Ideal) S8000x64 .f32 0x00000000#32) (ix2 p q)
      = ∑ k : Fin 2, a (ix2 p k) * b (ix2 k q) := by
  show FloatOps.matmul dot_S8000x2_S2x64_S8000x64_1_0_0_1_n_n none a b (constant (F := Ideal) S8000x64 .f32 0x00000000#32) (ix2 p q) = _
  rw [Ideal.matmul_constant_zero_apply, ← Equiv.sum_comp (ValueIdx.contrEquiv1 dot_S8000x2_S2x64_S8000x64_1_0_0_1_n_n 2 rfl rfl).symm]
  refine Finset.sum_congr rfl fun k _ => ?_
  have hk := ValueIdx.contrEquiv1_symm_val dot_S8000x2_S2x64_S8000x64_1_0_0_1_n_n 2 rfl rfl k
  have el : dot_S8000x2_S2x64_S8000x64_1_0_0_1_n_n.lhsIdx (ix2 p q) ((ValueIdx.contrEquiv1 dot_S8000x2_S2x64_S8000x64_1_0_0_1_n_n 2 rfl rfl).symm k) = ix2 p k := funext fun a => Fin.ext (by
    match a with
    | ⟨0, _⟩ => exact lhsEnc_0 _ _
    | ⟨1, _⟩ => exact (lhsEnc_1 _ _).trans hk)
  have er : dot_S8000x2_S2x64_S8000x64_1_0_0_1_n_n.rhsIdx (ix2 p q) ((ValueIdx.contrEquiv1 dot_S8000x2_S2x64_S8000x64_1_0_0_1_n_n 2 rfl rfl).symm k) = ix2 k q := funext fun a => Fin.ext (by
    match a with
    | ⟨0, _⟩ => exact (rhsEnc_0 _ _).trans hk
    | ⟨1, _⟩ => exact rhsEnc_1 _ _)
  rw [el, er]

theorem lhsHid_0 (i : S8000x64.Idx) (q : dot_S8000x192_S192x64_S8000x64_1_0_0_1_n_n.contr.Idx) :
    (dot_S8000x192_S192x64_S8000x64_1_0_0_1_n_n.lhsIdx i q 0).val = (i 0).val := by
  unfold DotDims.lhsIdx
  rw [dif_neg (show ¬(0 : Fin S8000x192.rank) ∈ dot_S8000x192_S192x64_S8000x64_1_0_0_1_n_n.lhsBatch by decide), dif_pos (show (0 : Fin S8000x192.rank) ∈ dot_S8000x192_S192x64_S8000x64_1_0_0_1_n_n.lhsNonContracting by decide)]
  rfl
theorem lhsHid_1 (i : S8000x64.Idx) (q : dot_S8000x192_S192x64_S8000x64_1_0_0_1_n_n.contr.Idx) :
    (dot_S8000x192_S192x64_S8000x64_1_0_0_1_n_n.lhsIdx i q 1).val = (q ⟨0, by decide⟩).val :=
  dot_S8000x192_S192x64_S8000x64_1_0_0_1_n_n.lhsIdx_val_of_single rfl i q
theorem rhsHid_0 (i : S8000x64.Idx) (q : dot_S8000x192_S192x64_S8000x64_1_0_0_1_n_n.contr.Idx) :
    (dot_S8000x192_S192x64_S8000x64_1_0_0_1_n_n.rhsIdx i q 0).val = (q ⟨0, by decide⟩).val :=
  dot_S8000x192_S192x64_S8000x64_1_0_0_1_n_n.rhsIdx_val_of_single rfl i q
theorem rhsHid_1 (i : S8000x64.Idx) (q : dot_S8000x192_S192x64_S8000x64_1_0_0_1_n_n.contr.Idx) :
    (dot_S8000x192_S192x64_S8000x64_1_0_0_1_n_n.rhsIdx i q 1).val = (i 1).val := by
  unfold DotDims.rhsIdx
  rw [dif_neg (show ¬(1 : Fin S192x64.rank) ∈ dot_S8000x192_S192x64_S8000x64_1_0_0_1_n_n.rhsBatch by decide), dif_pos (show (1 : Fin S192x64.rank) ∈ dot_S8000x192_S192x64_S8000x64_1_0_0_1_n_n.rhsNonContracting by decide)]
  rfl
theorem matmulHid_apply {φ₁ φ₂ : FTy} (a : FVec Ideal S8000x192 φ₁) (b : FVec Ideal S192x64 φ₂) (p : Fin 8000) (q : Fin 64) :
    matmul (F := Ideal) dot_S8000x192_S192x64_S8000x64_1_0_0_1_n_n none a b (constant (F := Ideal) S8000x64 .f32 0x00000000#32) (ix2 p q)
      = ∑ k : Fin 192, a (ix2 p k) * b (ix2 k q) := by
  show FloatOps.matmul dot_S8000x192_S192x64_S8000x64_1_0_0_1_n_n none a b (constant (F := Ideal) S8000x64 .f32 0x00000000#32) (ix2 p q) = _
  rw [Ideal.matmul_constant_zero_apply, ← Equiv.sum_comp (ValueIdx.contrEquiv1 dot_S8000x192_S192x64_S8000x64_1_0_0_1_n_n 192 rfl rfl).symm]
  refine Finset.sum_congr rfl fun k _ => ?_
  have hk := ValueIdx.contrEquiv1_symm_val dot_S8000x192_S192x64_S8000x64_1_0_0_1_n_n 192 rfl rfl k
  have el : dot_S8000x192_S192x64_S8000x64_1_0_0_1_n_n.lhsIdx (ix2 p q) ((ValueIdx.contrEquiv1 dot_S8000x192_S192x64_S8000x64_1_0_0_1_n_n 192 rfl rfl).symm k) = ix2 p k := funext fun a => Fin.ext (by
    match a with
    | ⟨0, _⟩ => exact lhsHid_0 _ _
    | ⟨1, _⟩ => exact (lhsHid_1 _ _).trans hk)
  have er : dot_S8000x192_S192x64_S8000x64_1_0_0_1_n_n.rhsIdx (ix2 p q) ((ValueIdx.contrEquiv1 dot_S8000x192_S192x64_S8000x64_1_0_0_1_n_n 192 rfl rfl).symm k) = ix2 k q := funext fun a => Fin.ext (by
    match a with
    | ⟨0, _⟩ => exact (rhsHid_0 _ _).trans hk
    | ⟨1, _⟩ => exact rhsHid_1 _ _)
  rw [el, er]

theorem lhsOut_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhsOut_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhsOut_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhsOut_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl
theorem matmulOut_apply {φ₁ φ₂ : FTy} (a : FVec Ideal S8000x64 φ₁) (b : FVec Ideal S64x64 φ₂) (p : Fin 8000) (q : Fin 64) :
    matmul (F := Ideal) dot_S8000x64_S64x64_S8000x64_1_0_0_1_n_n none a b (constant (F := Ideal) S8000x64 .f32 0x00000000#32) (ix2 p q)
      = ∑ k : Fin 64, a (ix2 p k) * b (ix2 k q) := by
  show FloatOps.matmul dot_S8000x64_S64x64_S8000x64_1_0_0_1_n_n none a b (constant (F := Ideal) S8000x64 .f32 0x00000000#32) (ix2 p q) = _
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact lhsOut_0 _ _
    | ⟨1, _⟩ => exact (lhsOut_1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rhsOut_0 _ _).trans hk
    | ⟨1, _⟩ => exact rhsOut_1 _ _)
  rw [el, er]

/-! ## The bias rows and the joined row at an index -/

/-- A 64-vector laid as one row and repeated down the 8000 rows reads, at `(p, q)`, the vector at `q`. -/
theorem biasRow_apply (b : Vec Ideal S64 .f32) (hc : S64.ShapeCasts S1x64) (hb : S1x64.Broadcasts S8000x64) (p : Fin 8000) (q : Fin 64) :
    broadcastTo S8000x64 (shapeCast S1x64 b hc) hb (ix2 p q) = b (ix1 q) :=
  (broadcastTo_1b_ab_apply (shapeCast S1x64 b hc) hb p q).trans (shapeCast_a_1a_apply b hc 0 q)

/-- Three 64-wide arrays of `n` rows joined along the columns read, at `(p, l)`, the array column `l` falls in, at
    its own column: the first for `l < 64`, the second for `64 ≤ l < 128`, the third from 128 on. -/
theorem joined_apply {n : Nat} (a b e : (⟨2, ![n, 64]⟩ : Shape).Idx → EReal)
    (h : Shape.Concatenates [(⟨2, ![n, 64]⟩ : Shape), ⟨2, ![n, 64]⟩, ⟨2, ![n, 64]⟩] ⟨2, ![n, 192]⟩ 1)
    (p : Fin n) (l : Fin 192) :
    concatenate (⟨2, ![n, 192]⟩ : Shape) 1 [⟨⟨2, ![n, 64]⟩, a⟩, ⟨⟨2, ![n, 64]⟩, b⟩, ⟨⟨2, ![n, 64]⟩, e⟩] h (ix2 p l)
      = catRow (fun j => a (ix2 p j)) (fun j => b (ix2 p j)) (fun j => e (ix2 p j)) l := by
  unfold catRow
  by_cases h1 : l.val < 64
  · rw [dif_pos h1]
    refine concatenate_apply_piece (1 : Fin (⟨2, ![n, 192]⟩ : Shape).rank) [⟨⟨2, ![n, 64]⟩, a⟩, ⟨⟨2, ![n, 64]⟩, b⟩, ⟨⟨2, ![n, 64]⟩, e⟩] h (ix2 p l) 0 (by show (0 : Nat) < 3; omega) ⟨2, ![n, 64]⟩ a rfl rfl 0 rfl (ix2 p ⟨l.val, h1⟩) ?_ ?_
    · intro bb hbb
      match bb with
      | ⟨0, _⟩ => rfl
      | ⟨1, _⟩ => exact absurd rfl hbb
    · show 0 + l.val = l.val
      omega
  · rw [dif_neg h1]
    by_cases h2 : l.val < 128
    · rw [dif_pos h2]
      refine concatenate_apply_piece (1 : Fin (⟨2, ![n, 192]⟩ : Shape).rank) [⟨⟨2, ![n, 64]⟩, a⟩, ⟨⟨2, ![n, 64]⟩, b⟩, ⟨⟨2, ![n, 64]⟩, e⟩] h (ix2 p l) 1 (by show (1 : Nat) < 3; omega) ⟨2, ![n, 64]⟩ b rfl rfl 64 rfl (ix2 p ⟨l.val - 64, by omega⟩) ?_ ?_
      · intro bb hbb
        match bb with
        | ⟨0, _⟩ => rfl
        | ⟨1, _⟩ => exact absurd rfl hbb
      · show 64 + (l.val - 64) = l.val
        omega
    · rw [dif_neg h2]
      refine concatenate_apply_piece (1 : Fin (⟨2, ![n, 192]⟩ : Shape).rank) [⟨⟨2, ![n, 64]⟩, a⟩, ⟨⟨2, ![n, 64]⟩, b⟩, ⟨⟨2, ![n, 64]⟩, e⟩] h (ix2 p l) 2 (by show (2 : Nat) < 3; omega) ⟨2, ![n, 64]⟩ e rfl rfl 128 rfl (ix2 p ⟨l.val - 128, by have := l.isLt; omega⟩) ?_ ?_
      · intro bb hbb
        match bb with
        | ⟨0, _⟩ => rfl
        | ⟨1, _⟩ => exact absurd rfl hbb
      · show 128 + (l.val - 128) = l.val
        omega

/-- Two messages agree when their nine ingredients do. -/
theorem msg_congr {hd hd' hs hs' : Fin 64 → EReal} {ea ea' : Fin 2 → EReal} {We We' : Fin 2 → Fin 64 → EReal} {be be' : Fin 64 → EReal}
    {W1 W1' : Fin 192 → Fin 64 → EReal} {b1 b1' : Fin 64 → EReal} {W2 W2' : Fin 64 → Fin 64 → EReal} {b2 b2' : Fin 64 → EReal}
    (e1 : hd = hd') (e2 : hs = hs') (e3 : ea = ea') (e4 : We = We') (e5 : be = be') (e6 : W1 = W1') (e7 : b1 = b1')
    (e8 : W2 = W2') (e9 : b2 = b2') (q : Fin 64) :
    msg hd hs ea We be W1 b1 W2 b2 q = msg hd' hs' ea' We' be' W1' b1' W2' b2' q := by
  subst e1 e2 e3 e4 e5 e6 e7 e8 e9
  rfl

/-! ## The body's stored value at an index -/

/-- THE STORED VALUE at row `p`, feature `q` of a block: the message of the block's row `p` — its destination and
    source rows, its two edge attributes — through the six weight arrays. The changes of float format are the
    identity on the extended reals, and so is a cast of a block to its own shape. -/
theorem pay_apply (v0 v2 : Vec Ideal S8000x64 .f32) (v4 : Vec Ideal S8000x2 .f32) (v6 : Vec Ideal S2x64 .f32) (v8 : Vec Ideal S64 .f32)
    (v15 : Vec Ideal S192x64 .f32) (v17 : Vec Ideal S64 .f32) (v25 : Vec Ideal S64x64 .f32) (v27 : Vec Ideal S64 .f32)
    (p : Fin 8000) (q : Fin 64) :
    k1_pay1 (F := Ideal) v0 v2 v4 v6 v8 v15 v17 v25 v27 (ix2 p q)
      = msg (fun j => v0 (ix2 p j)) (fun j => v2 (ix2 p j)) (fun m => v4 (ix2 p m)) (fun m j => v6 (ix2 m j)) (fun j => v8 (ix1 j))
          (fun l k => v15 (ix2 l k)) (fun k => v17 (ix1 k)) (fun k j => v25 (ix2 k j)) (fun j => v27 (ix1 j)) q := by
  unfold k1_pay1 msg
  dsimp only
  -- the second layer: a product with the 64×64 weights, plus its bias row
  refine (addf_apply _ _ _).trans (congrArg₂ (· + ·) ?_ (biasRow_apply v27 _ _ p q))
  refine (matmulOut_apply _ _ p q).trans (Finset.sum_congr rfl fun k _ => ?_)
  refine congrArg₂ (· * ·) ?_ rfl
  -- the rectifier: the maximum with the zero splat
  refine (truncf_apply (φ := .f32) (ψ := .bf16) _ bitsLt_bf16_f32 _).trans ((maximumf_apply _ _ _).trans (congrArg₂ max ?_ Ideal.ofBits_zero_f32))
  -- the first layer: the joined row times the 192×64 weights, plus its bias row
  refine (addf_apply _ _ _).trans (congrArg₂ (· + ·) ?_ (biasRow_apply v17 _ _ p k))
  refine (matmulHid_apply _ _ p k).trans (Finset.sum_congr rfl fun l _ => ?_)
  refine congrArg₂ (· * ·) ?_ rfl
  refine (truncf_apply (φ := .f32) (ψ := .bf16) _ bitsLt_bf16_f32 _).trans ((joined_apply _ _ _ _ p l).trans ?_)
  simp only [shapeCast_self]
  refine congrArg (fun e => catRow (fun j => v0 (ix2 p j)) (fun j => v2 (ix2 p j)) e l) (funext fun j => ?_)
  -- the edge encoder: the two attributes times the 2×64 weights, plus its bias row
  unfold edgeEnc
  exact (addf_apply _ _ _).trans (congrArg₂ (· + ·) (matmulEnc_apply _ _ p j) (biasRow_apply v8 _ _ p j))

end Cert.KernelIdeal.EdgeMessage

end
-- ==== Proof.Region1Aux2.lean ====
/-
  Region 1 (edge encoder + message net), the geometry: at grid point `t` the three edge-indexed inputs and the output
  hold rows `8000 t … 8000 t + 7999` of their arrays and the six weight arrays are staged whole; the 150 output blocks
  cover the 1200000 × 64 array.
-/
import proofs.«406139_j54039278518761_1_alg».proof.Proof.Gen.KernelIdeal.Frame
import Idealize.ShloMosaic.Lib.Pipeline.Value
import Idealize.ShloMosaic.Lib.ValueIdx

set_option maxRecDepth 16384

noncomputable section

namespace Cert.KernelIdeal.EdgeMessage

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-! ## Where each window's block lies, point by point

The grid has 150 points. At point `t` the three edge-indexed inputs and the output hold rows `8000 t … 8000 t + 7999`
of their arrays (block index `(t, 0)`); the six weight arrays are staged whole (block index zero on every axis). -/

/-- The edge-indexed windows' block index at point `t` is `(t, 0)` (decided over the 150 points). -/
theorem edgeBlockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0 :=
  (by decide +kernel : ∀ t : Fin grid1.N, _)

/-- The weight windows' block index is zero at every point (decided over the 150 points). -/
theorem weightBlockIndex : ∀ t : Fin cfg1.N,
    win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

/-- Row `p` of point `t`'s block is row `8000 t + p` of the 1200000-row arrays. -/
def edgeRow (t : Fin cfg1.N) (p : Fin 8000) : Fin 1200000 :=
  ⟨8000 * t.val + p.val, by have := t.isLt; have hN : cfg1.N = 150 := N_1; have := p.isLt; omega⟩

theorem edgeRow_val (t : Fin cfg1.N) (p : Fin 8000) : (edgeRow t p).val = 8000 * t.val + p.val := rfl

/-! ## The input blocks read off the arrays the region finds -/

/-- Window 0's block at `t`: rows `8000 t …` of the gathered destination rows. -/
theorem dstBlock_apply (c : Dev nD) (t : Fin cfg1.N) (p : Fin 8000) (j : Fin 64) :
    (iblk1 V c 0 t : Vec Ideal S8000x64 .f32) (ix2 p j) = (V c main_v5 : Vec Ideal S1200000x64 .f32) (ix2 (edgeRow t p) j) := by
  obtain ⟨e0, e1, -⟩ := edgeBlockIndex t
  unfold iblk1
  rw [View.read_apply]
  show V c main_v5 _ = V c main_v5 _
  congr 1
  funext a
  apply Fin.ext
  match a with
  | ⟨0, _⟩ => show win1_0.index t 0 * 8000 + 1 * p.val = 8000 * t.val + p.val; rw [e0]; omega
  | ⟨1, _⟩ => show win1_0.index t 1 * 64 + 1 * j.val = j.val; rw [e1]; omega

/-- Window 1's block at `t`: rows `8000 t …` of the gathered source rows. -/
theorem srcBlock_apply (c : Dev nD) (t : Fin cfg1.N) (p : Fin 8000) (j : Fin 64) :
    (iblk1 V c 1 t : Vec Ideal S8000x64 .f32) (ix2 p j) = (V c main_v6 : Vec Ideal S1200000x64 .f32) (ix2 (edgeRow t p) j) := by
  obtain ⟨-, -, e0, e1, -⟩ := edgeBlockIndex t
  unfold iblk1
  rw [View.read_apply]
  show V c main_v6 _ = V c main_v6 _
  congr 1
  funext a
  apply Fin.ext
  match a with
  | ⟨0, _⟩ => show win1_1.index t 0 * 8000 + 1 * p.val = 8000 * t.val + p.val; rw [e0]; omega
  | ⟨1, _⟩ => show win1_1.index t 1 * 64 + 1 * j.val = j.val; rw [e1]; omega

/-- Window 2's block at `t`: rows `8000 t …` of the edge attributes. -/
theorem attrBlock_apply (c : Dev nD) (t : Fin cfg1.N) (p : Fin 8000) (j : Fin 2) :
    (iblk1 V c 2 t : Vec Ideal S8000x2 .f32) (ix2 p j) = (V c main_arg1 : Vec Ideal S1200000x2 .f32) (ix2 (edgeRow t p) j) := by
  obtain ⟨-, -, -, -, e0, e1, -⟩ := edgeBlockIndex t
  unfold iblk1
  rw [View.read_apply]
  show V c main_arg1 _ = V c main_arg1 _
  congr 1
  funext a
  apply Fin.ext
  match a with
  | ⟨0, _⟩ => show win1_2.index t 0 * 8000 + 1 * p.val = 8000 * t.val + p.val; rw [e0]; omega
  | ⟨1, _⟩ => show win1_2.index t 1 * 2 + 1 * j.val = j.val; rw [e1]; omega

/-- Window 3's block is the whole edge-encoder weight array. -/
theorem encWeightBlock (c : Dev nD) (t : Fin cfg1.N) : (iblk1 V c 3 t : Vec Ideal S2x64 .f32) = V c main_arg7 := by
  obtain ⟨e0, e1, -⟩ := weightBlockIndex t
  funext y
  unfold iblk1
  rw [View.read_apply]
  show V c main_arg7 _ = V c main_arg7 y
  congr 1
  funext a
  apply Fin.ext
  match a with
  | ⟨0, _⟩ => show win1_3.index t 0 * 2 + 1 * (y 0).val = (y 0).val; rw [e0]; omega
  | ⟨1, _⟩ => show win1_3.index t 1 * 64 + 1 * (y 1).val = (y 1).val; rw [e1]; omega

/-- Window 4's block is the whole edge-encoder bias. -/
theorem encBiasBlock (c : Dev nD) (t : Fin cfg1.N) : (iblk1 V c 4 t : Vec Ideal S64 .f32) = V c main_arg8 := by
  obtain ⟨-, -, e0, -⟩ := weightBlockIndex t
  funext y
  unfold iblk1
  rw [View.read_apply]
  show V c main_arg8 _ = V c main_arg8 y
  congr 1
  funext a
  apply Fin.ext
  match a with
  | ⟨0, _⟩ => show win1_4.index t 0 * 64 + 1 * (y 0).val = (y 0).val; rw [e0]; omega

/-- Window 5's block is the whole first-layer weight array. -/
theorem hidWeightBlock (c : Dev nD) (t : Fin cfg1.N) : (iblk1 V c 5 t : Vec Ideal S192x64 .f32) = V c main_arg9 := by
  obtain ⟨-, -, -, e0, e1, -⟩ := weightBlockIndex t
  funext y
  unfold iblk1
  rw [View.read_apply]
  show V c main_arg9 _ = V c main_arg9 y
  congr 1
  funext a
  apply Fin.ext
  match a with
  | ⟨0, _⟩ => show win1_5.index t 0 * 192 + 1 * (y 0).val = (y 0).val; rw [e0]; omega
  | ⟨1, _⟩ => show win1_5.index t 1 * 64 + 1 * (y 1).val = (y 1).val; rw [e1]; omega

/-- Window 6's block is the whole first-layer bias. -/
theorem hidBiasBlock (c : Dev nD) (t : Fin cfg1.N) : (iblk1 V c 6 t : Vec Ideal S64 .f32) = V c main_arg10 := by
  obtain ⟨-, -, -, -, -, e0, -⟩ := weightBlockIndex t
  funext y
  unfold iblk1
  rw [View.read_apply]
  show V c main_arg10 _ = V c main_arg10 y
  congr 1
  funext a
  apply Fin.ext
  match a with
  | ⟨0, _⟩ => show win1_6.index t 0 * 64 + 1 * (y 0).val = (y 0).val; rw [e0]; omega

/-- Window 7's block is the whole second-layer weight array. -/
theorem outWeightBlock (c : Dev nD) (t : Fin cfg1.N) : (iblk1 V c 7 t : Vec Ideal S64x64 .f32) = V c main_arg11 := by
  obtain ⟨-, -, -, -, -, -, e0, e1, -⟩ := weightBlockIndex t
  funext y
  unfold iblk1
  rw [View.read_apply]
  show V c main_arg11 _ = V c main_arg11 y
  congr 1
  funext a
  apply Fin.ext
  match a with
  | ⟨0, _⟩ => show win1_7.index t 0 * 64 + 1 * (y 0).val = (y 0).val; rw [e0]; omega
  | ⟨1, _⟩ => show win1_7.index t 1 * 64 + 1 * (y 1).val = (y 1).val; rw [e1]; omega

/-- Window 8's block is the whole second-layer bias. -/
theorem outBiasBlock (c : Dev nD) (t : Fin cfg1.N) : (iblk1 V c 8 t : Vec Ideal S64 .f32) = V c main_arg12 := by
  obtain ⟨-, -, -, -, -, -, -, -, e0⟩ := weightBlockIndex t
  funext y
  unfold iblk1
  rw [View.read_apply]
  show V c main_arg12 _ = V c main_arg12 y
  congr 1
  funext a
  apply Fin.ext
  match a with
  | ⟨0, _⟩ => show win1_8.index t 0 * 64 + 1 * (y 0).val = (y 0).val; rw [e0]; omega

/-! ## The output blocks tile the array -/

/-- The output block's element `(p, q)` at point `t` sits at row `8000 t + p`, column `q` of the array. -/
theorem outBlock_emb (t : Fin cfg1.N) (p : Fin 8000) (q : Fin 64) :
    ((cfg1.win 9).blk t).view.emb (ix2 p q) = (ix2 (edgeRow t p) q : S1200000x64.Idx) := by
  obtain ⟨-, -, -, -, -, -, e0, e1⟩ := edgeBlockIndex t
  funext a
  apply Fin.ext
  match a with
  | ⟨0, _⟩ => show win1_9.index t 0 * 8000 + 1 * p.val = 8000 * t.val + p.val; rw [e0]; omega
  | ⟨1, _⟩ => show win1_9.index t 1 * 64 + 1 * q.val = q.val; rw [e1]; omega

/-- An index of the array is in point `t`'s output block iff each coordinate is in the block's range on its axis. -/
theorem mem_outBlock (t : Fin cfg1.N) (i : S1200000x64.Idx) :
    i ∈ ((cfg1.win 9).blk t).view.set ↔ ∀ a : Fin 2, win1_9.index t a * S8000x64.size a ≤ (i a).val ∧ (i a).val < win1_9.index t a * S8000x64.size a + S8000x64.size a := by
  show i ∈ ((View.whole main_v7).slice (win1_9.rect t)).set ↔ _
  rw [View.set_slice_whole, Rect.mem_set_unit]
  exact Iff.rfl

/-- Every index of the array is in some point's output block: row `r` in the block of point `r / 8000`. -/
theorem outBlocks_cover (i : S1200000x64.Idx) :
    ∃ t : Fin cfg1.N, (cfg1.win 9).flush t = true ∧ i ∈ ((cfg1.win 9).blk t).view.set := by
  have hN : cfg1.N = 150 := N_1
  have hi0 : (i 0).val < 1200000 := (i 0).isLt
  have hi1 : (i 1).val < 64 := (i 1).isLt
  obtain ⟨t, ht⟩ : ∃ t : Fin cfg1.N, t.val = (i 0).val / 8000 := ⟨⟨(i 0).val / 8000, by omega⟩, rfl⟩
  obtain ⟨-, -, -, -, -, -, e0, e1⟩ := edgeBlockIndex t
  refine ⟨t, flush1_9 t, ?_⟩
  rw [mem_outBlock]
  intro a
  match a with
  | ⟨0, _⟩ => show win1_9.index t 0 * 8000 ≤ (i 0).val ∧ (i 0).val < win1_9.index t 0 * 8000 + 8000; rw [e0]; omega
  | ⟨1, _⟩ => show win1_9.index t 1 * 64 ≤ (i 1).val ∧ (i 1).val < win1_9.index t 1 * 64 + 64; rw [e1]; omega

end Cert.KernelIdeal.EdgeMessage

end
-- ==== Proof.Region1.lean ====
/-
  Region 1 (edge encoder + message net), read as a value: when the region finds the gathered rows h[dst], h[src] in its
  first two arrays, the array its write-backs leave is the reference's message stage, index by index.
-/
import proofs.«406139_j54039278518761_1_alg».proof.Proof.Gen.KernelIdeal.Frame
import proofs.«406139_j54039278518761_1_alg».proof.Proof.Gen.ReferenceIdeal.Read
import proofs.«406139_j54039278518761_1_alg».proof.Proof.Region1Aux1
import proofs.«406139_j54039278518761_1_alg».proof.Proof.Region1Aux2

set_option maxRecDepth 16384

noncomputable section

namespace Cert.KernelIdeal.EdgeMessage

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-! ## The reference's message stage at an index -/

open Cert.ReferenceIdeal.Read in
/-- THE REFERENCE'S MESSAGE at edge `r`, feature `q`: the same message of the gathered destination and source rows of
    edge `r` and its two attributes. The two gathers are not opened. -/
theorem ref_apply (x0 : (⟨Cert.ReferenceIdeal.S50000x5, .f32⟩ : BufTy).Contents (Elt Ideal)) (x1 : (⟨Cert.ReferenceIdeal.S1200000x2, .f32⟩ : BufTy).Contents (Elt Ideal)) (x2 : (⟨Cert.ReferenceIdeal.S2x1200000, .i32⟩ : BufTy).Contents (Elt Ideal)) (x3 : (⟨Cert.ReferenceIdeal.S5x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S2x64, .f32⟩ : BufTy).Contents (Elt Ideal)) (x8 : (⟨Cert.ReferenceIdeal.S64, .f32⟩ : BufTy).Contents (Elt Ideal)) (x9 : (⟨Cert.ReferenceIdeal.S192x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64, .f32⟩ : BufTy).Contents (Elt Ideal))
    (r : Fin 1200000) (q : Fin 64) :
    val_main_v40 (F := Ideal) x0 x1 x2 x3 x4 x5 x6 x7 x8 x9 x10 x11 x12 (ix2 r q)
      = msg (fun j => val_main_v23 (F := Ideal) x0 x2 x3 x4 x5 x6 (ix2 r j)) (fun j => val_main_v30 (F := Ideal) x0 x2 x3 x4 x5 x6 (ix2 r j))
          (fun m => x1 (ix2 r m)) (fun m j => x7 (ix2 m j)) (fun j => x8 (ix1 j))
          (fun l k => x9 (ix2 l k)) (fun k => x10 (ix1 k)) (fun k j => x11 (ix2 k j)) (fun j => x12 (ix1 j)) q := by
  rw [val_main_v40_apply, val_main_v37_apply, val_main_v39_apply, val_main_v38_apply]
  unfold msg
  refine congrArg₂ (· + ·) (Finset.sum_congr rfl fun k _ => ?_)
    (congrArg x12 (funext fun a => Fin.ext (by match a with | ⟨0, _⟩ => rfl)))
  -- the second layer's summand
  rw [show lidx_main_v37 (ix2 r q) k = ix2 r k from funext fun a => Fin.ext (by match a with | ⟨0, _⟩ => rfl | ⟨1, _⟩ => rfl),
    show ridx_main_v37 (ix2 r q) k = ix2 k q from funext fun a => Fin.ext (by match a with | ⟨0, _⟩ => rfl | ⟨1, _⟩ => rfl)]
  refine congrArg₂ (· * ·) ?_ rfl
  rw [val_main_v36_apply, val_main_v35_apply, val_main_v32_apply, val_main_v34_apply, val_main_v33_apply,
    val_main_call1_v0_apply, val_main_call1_cst_apply]
  refine congrArg₂ max (congrArg₂ (· + ·) (Finset.sum_congr rfl fun l _ => ?_)
    (congrArg x10 (funext fun a => Fin.ext (by match a with | ⟨0, _⟩ => rfl)))) Ideal.ofBits_zero_f32
  -- the first layer's summand: the joined row read by hand
  rw [show lidx_main_v32 (ix2 r k) l = ix2 r l from funext fun a => Fin.ext (by match a with | ⟨0, _⟩ => rfl | ⟨1, _⟩ => rfl),
    show ridx_main_v32 (ix2 r k) l = ix2 l k from funext fun a => Fin.ext (by match a with | ⟨0, _⟩ => rfl | ⟨1, _⟩ => rfl)]
  refine congrArg₂ (· * ·) ?_ rfl
  unfold val_main_v31
  refine (joined_apply _ _ _ _ r l).trans ?_
  refine congrArg (fun e => catRow (fun j => val_main_v23 (F := Ideal) x0 x2 x3 x4 x5 x6 (ix2 r j))
    (fun j => val_main_v30 (F := Ideal) x0 x2 x3 x4 x5 x6 (ix2 r j)) e l) (funext fun j => ?_)
  -- the edge encoder
  rw [val_main_v12_apply, val_main_v9_apply, val_main_v11_apply, val_main_v10_apply]
  unfold edgeEnc
  refine congrArg₂ (· + ·) (Finset.sum_congr rfl fun m _ => ?_)
    (congrArg x8 (funext fun a => Fin.ext (by match a with | ⟨0, _⟩ => rfl)))
  rw [show lidx_main_v9 (ix2 r j) m = ix2 r m from funext fun a => Fin.ext (by match a with | ⟨0, _⟩ => rfl | ⟨1, _⟩ => rfl),
    show ridx_main_v9 (ix2 r j) m = ix2 m j from funext fun a => Fin.ext (by match a with | ⟨0, _⟩ => rfl | ⟨1, _⟩ => rfl)]

/-! ## From the blocks to the array -/

theorem region1_value (c : Dev nD) (x0 : (⟨Cert.ReferenceIdeal.S50000x5, .f32⟩ : BufTy).Contents (Elt Ideal)) (x1 : (⟨Cert.ReferenceIdeal.S1200000x2, .f32⟩ : BufTy).Contents (Elt Ideal)) (x2 : (⟨Cert.ReferenceIdeal.S2x1200000, .i32⟩ : BufTy).Contents (Elt Ideal)) (x3 : (⟨Cert.ReferenceIdeal.S5x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S2x64, .f32⟩ : BufTy).Contents (Elt Ideal)) (x8 : (⟨Cert.ReferenceIdeal.S64, .f32⟩ : BufTy).Contents (Elt Ideal)) (x9 : (⟨Cert.ReferenceIdeal.S192x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64, .f32⟩ : BufTy).Contents (Elt Ideal))
    (h5 : V c main_v5 = Cert.ReferenceIdeal.Read.val_main_v23 (F := Ideal) x0 x2 x3 x4 x5 x6)
    (h6 : V c main_v6 = Cert.ReferenceIdeal.Read.val_main_v30 (F := Ideal) x0 x2 x3 x4 x5 x6)
    (h1 : V c main_arg1 = x1) (h7 : V c main_arg7 = x7) (h8 : V c main_arg8 = x8) (h9 : V c main_arg9 = x9)
    (h10 : V c main_arg10 = x10) (h11 : V c main_arg11 = x11) (h12 : V c main_arg12 = x12) :
    (dat1 (F := Ideal) V c).arrAt 9 cfg1.N
      = Cert.ReferenceIdeal.Read.val_main_v40 (F := Ideal) x0 x1 x2 x3 x4 x5 x6 x7 x8 x9 x10 x11 x12 := by
  refine (dat1 (F := Ideal) V c).arrAt_eq_of_cover 9
    (Cert.ReferenceIdeal.Read.val_main_v40 (F := Ideal) x0 x1 x2 x3 x4 x5 x6 x7 x8 x9 x10 x11 x12) (fun t _ => ?_) outBlocks_cover
  -- what point `t` writes back is block `t` of the reference's stage
  show (cfg1.win 9).cut (grid1.coords t) ((dat1 (F := Ideal) V c).after 9 t) = _
  rw [after1_9]
  unfold out1_9
  rw [View.canon_unit_zero origin2]
  simp only [View.ld_unit_zero (S := S8000x64) origin2, View.ld_unit_zero (S := S8000x2) origin2,
    View.ld_unit_zero (S := S2x64) origin2, View.ld_unit_zero (S := S64) origin1,
    View.ld_unit_zero (S := S192x64) origin2, View.ld_unit_zero (S := S64x64) origin2]
  funext y
  obtain ⟨p, q, rfl⟩ : ∃ (p : Fin 8000) (q : Fin 64), y = ix2 p q := ⟨y 0, y 1, eq_ix2 y⟩
  show k1_pay1 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (ix2 p q)
    = Cert.ReferenceIdeal.Read.val_main_v40 (F := Ideal) x0 x1 x2 x3 x4 x5 x6 x7 x8 x9 x10 x11 x12 (((cfg1.win 9).blk t).view.emb (ix2 p q))
  rw [outBlock_emb t p q, ref_apply]
  refine (pay_apply (iblk1 V c 0 t) (iblk1 V c 1 t) (iblk1 V c 2 t) (iblk1 V c 3 t) (iblk1 V c 4 t) (iblk1 V c 5 t)
    (iblk1 V c 6 t) (iblk1 V c 7 t) (iblk1 V c 8 t) p q).trans (msg_congr ?_ ?_ ?_ ?_ ?_ ?_ ?_ ?_ ?_ q)
  · funext j; rw [dstBlock_apply V c t p j, h5]
  · funext j; rw [srcBlock_apply V c t p j, h6]
  · funext m; rw [attrBlock_apply V c t p m, h1]
  · rw [encWeightBlock V c t, h7]
  · rw [encBiasBlock V c t, h8]
  · rw [hidWeightBlock V c t, h9]
  · rw [hidBiasBlock V c t, h10]
  · rw [outWeightBlock V c t, h11]
  · rw [outBiasBlock V c t, h12]

end Cert.KernelIdeal.EdgeMessage

end
-- ==== Proof.Region2Aux.lean ====
/-
  The update net of region 2 on one row, and the value the region's body stores, index by index: the block it
  stores at (p, q) is the net on row p of the two staged row blocks, read through the staged weights.
-/
import proofs.«406139_j54039278518761_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.UpdateNet

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The update net on one row -/

/-- Feature l of the concatenated row [h | agg]: the first 64 are h's, the last 64 are the aggregate's. -/
def catRow (hrow arow : Fin 64 → EReal) (l : Fin 128) : EReal :=
  if hl : l.val < 64 then hrow ⟨l.val, hl⟩ else arow ⟨l.val - 64, by have := l.isLt; omega⟩

/-- The update net on one row: max(cat·Wu1 + bu1, 0)·Wu2 + bu2 at output feature q. -/
def net (hrow arow : Fin 64 → EReal) (w1 : Fin 128 → Fin 64 → EReal) (b1 : Fin 64 → EReal)
    (w2 : Fin 64 → Fin 64 → EReal) (b2 : Fin 64 → EReal) (q : Fin 64) : EReal :=
  (∑ k : Fin 64, max ((∑ l : Fin 128, catRow hrow arow l * w1 l k) + b1 k) 0 * w2 k q) + b2 q

/-! ## The first matmul's operand indices -/

theorem lhsA_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsA_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsA_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsA_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A [5000,128] × [128,64] product into the zero splat, at (p, q): the sum over the 128 contracted features. -/
theorem matmulA_apply (a : FVec Ideal S5000x128 .bf16) (b : FVec Ideal S128x64 .bf16) (p : Fin 5000) (q : Fin 64) :
    matmul dot_S5000x128_S128x64_S5000x64_1_0_0_1_n_n none a b (constant (F := Ideal) S5000x64 .f32 0x00000000#32) (ix2 p q)
      = ∑ l : Fin 128, a (ix2 p l) * b (ix2 l q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ## The second matmul's operand indices -/

theorem lhsB_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsB_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsB_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsB_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000,64] × [64,64] product into the zero splat, at (p, q): the sum over the 64 contracted features. -/
theorem matmulB_apply (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## The layout operations at an index -/

/-- Two 64-wide pieces joined along the columns, at (p, l): the first piece for l < 64, else the second at l - 64. -/
theorem concat_cols_apply {α : Type} {n : Nat} (x₁ x₂ : (⟨2, ![n, 64]⟩ : Shape).Idx → α)
    (h : Shape.Concatenates [(⟨2, ![n, 64]⟩ : Shape), (⟨2, ![n, 64]⟩ : Shape)] (⟨2, ![n, 128]⟩ : Shape) 1) (p : Fin n) (l : Fin 128) :
    concatenate (⟨2, ![n, 128]⟩ : Shape) 1 [⟨(⟨2, ![n, 64]⟩ : Shape), x₁⟩, ⟨(⟨2, ![n, 64]⟩ : Shape), x₂⟩] h (ix2 p l)
      = if hl : l.val < 64 then x₁ (ix2 p ⟨l.val, hl⟩) else x₂ (ix2 p ⟨l.val - 64, by have := l.isLt; omega⟩) := by
  by_cases hl : l.val < 64
  · rw [dif_pos hl]
    exact concatenate_pair_apply_left 1 x₁ x₂ h (ix2 p l) rfl (ix2 p ⟨l.val, hl⟩) (fun b => by
      match b with
      | ⟨0, _⟩ => rfl
      | ⟨1, _⟩ => rfl)
  · rw [dif_neg hl]
    exact concatenate_pair_apply_right 1 x₁ x₂ h (ix2 p l) rfl rfl (ix2 p ⟨l.val - 64, by have := l.isLt; omega⟩) (fun b hb => by
      match b with
      | ⟨0, _⟩ => rfl
      | ⟨1, _⟩ => exact absurd rfl hb) (by show l.val - 64 + 64 = l.val; omega)

/-- A 64-vector read as one row and repeated down 5000 rows, at (p, q): the vector at q. -/
theorem bias_apply (b : Vec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans (shapeCast_a_1a_apply b shapeCasts_S64_S1x64 0 q)

/-! ## The body's stored value at an index -/

/-- The block the body stores, at (p, q): the update net on row p of the two staged row blocks. -/
theorem pay_apply (h a : Vec Ideal S5000x64 .f32) (w1 : Vec Ideal S128x64 .f32) (b1 : Vec Ideal S64 .f32)
    (w2 : Vec Ideal S64x64 .f32) (b2 : Vec Ideal S64 .f32) (p : Fin 5000) (q : Fin 64) :
    k2_pay1 (F := Ideal) h a w1 b1 w2 b2 (ix2 p q)
      = net (fun l => h (ix2 p l)) (fun l => a (ix2 p l)) (fun l k => w1 (ix2 l k)) (fun k => b1 (ix1 k))
          (fun k q => w2 (ix2 k q)) (fun q => b2 (ix1 q)) q := by
  unfold k2_pay1 net
  simp only [shapeCast_self]
  rw [addf_apply, matmulB_apply, bias_apply]
  refine congrArg (· + b2 (ix1 q)) (Finset.sum_congr rfl fun k _ => ?_)
  rw [truncf_apply, truncf_apply, maximumf_apply, addf_apply, matmulA_apply, bias_apply, broadcast_apply]
  rw [Ideal.ofBits_def, Ideal.ofBits_zero_f32]
  refine congrArg (fun z => max (z + b1 (ix1 k)) 0 * w2 (ix2 k q)) (Finset.sum_congr rfl fun l _ => ?_)
  rw [truncf_apply, truncf_apply, concat_cols_apply, shapeCast_self, shapeCast_self]
  rfl

end Cert.KernelIdeal.UpdateNet

end
-- ==== Proof.Region2.lean ====
/-
  Region 2 (the update net), read as a value: when the region finds the node encoding h and the mean aggregate in its
  first two arrays, the array its write-backs leave is the reference's result, index by index.
-/
import proofs.«406139_j54039278518761_1_alg».proof.Proof.Gen.KernelIdeal.Frame
import proofs.«406139_j54039278518761_1_alg».proof.Proof.Gen.ReferenceIdeal.Read
import proofs.«406139_j54039278518761_1_alg».proof.Proof.Region2Aux

set_option maxRecDepth 16384

noncomputable section

namespace Cert.KernelIdeal.UpdateNet

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The whole arrays -/

/-- The update net applied to every row of the two [50000,64] arrays. -/
def netArr (h a : S50000x64.Idx → EReal) (w1 : S128x64.Idx → EReal) (b1 : S64.Idx → EReal)
    (w2 : S64x64.Idx → EReal) (b2 : S64.Idx → EReal) : S50000x64.Idx → EReal := fun i =>
  net (fun l => h (ix2 (i 0) l)) (fun l => a (ix2 (i 0) l)) (fun l k => w1 (ix2 l k)) (fun k => b1 (ix1 k))
    (fun k q => w2 (ix2 k q)) (fun q => b2 (ix1 q)) (i 1)

/-! ## The reference's stage -/

open Cert.ReferenceIdeal.Read in
/-- THE REFERENCE'S STAGE is the update net of its node encoding and its mean aggregate, row by row. -/
theorem ref_eq (x0 : (⟨Cert.ReferenceIdeal.S50000x5, .f32⟩ : BufTy).Contents (Elt Ideal)) (x1 : (⟨Cert.ReferenceIdeal.S1200000x2, .f32⟩ : BufTy).Contents (Elt Ideal)) (x2 : (⟨Cert.ReferenceIdeal.S2x1200000, .i32⟩ : BufTy).Contents (Elt Ideal)) (x3 : (⟨Cert.ReferenceIdeal.S5x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S2x64, .f32⟩ : BufTy).Contents (Elt Ideal)) (x8 : (⟨Cert.ReferenceIdeal.S64, .f32⟩ : BufTy).Contents (Elt Ideal)) (x9 : (⟨Cert.ReferenceIdeal.S192x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64, .f32⟩ : BufTy).Contents (Elt Ideal)) (x13 : (⟨Cert.ReferenceIdeal.S128x64, .f32⟩ : BufTy).Contents (Elt Ideal)) (x14 : (⟨Cert.ReferenceIdeal.S64, .f32⟩ : BufTy).Contents (Elt Ideal)) (x15 : (⟨Cert.ReferenceIdeal.S64x64, .f32⟩ : BufTy).Contents (Elt Ideal)) (x16 : (⟨Cert.ReferenceIdeal.S64, .f32⟩ : BufTy).Contents (Elt Ideal)) :
    val_main_v62 (F := Ideal) x0 x1 x2 x3 x4 x5 x6 x7 x8 x9 x10 x11 x12 x13 x14 x15 x16
      = netArr (val_main_v8 (F := Ideal) x0 x3 x4 x5 x6) (val_main_v52 (F := Ideal) x0 x1 x2 x3 x4 x5 x6 x7 x8 x9 x10 x11 x12) x13 x14 x15 x16 := by
  funext i
  obtain ⟨r, q, rfl⟩ : ∃ (r : Fin 50000) (q : Fin 64), i = ix2 r q := ⟨i 0, i 1, eq_ix2 i⟩
  have e61 : idx_main_v60 (idx_main_v61 (ix2 r q)) = ix1 q := funext fun a => Fin.ext (by
    match a with
    | ⟨0, _⟩ => rfl)
  rw [val_main_v62_apply, val_main_v59_apply, val_main_v61_apply, val_main_v60_apply, e61, Ideal.addf_def]
  show _ = net (fun l => val_main_v8 (F := Ideal) x0 x3 x4 x5 x6 (ix2 r l)) (fun l => val_main_v52 (F := Ideal) x0 x1 x2 x3 x4 x5 x6 x7 x8 x9 x10 x11 x12 (ix2 r l))
    (fun l k => x13 (ix2 l k)) (fun k => x14 (ix1 k)) (fun k q => x15 (ix2 k q)) (fun q => x16 (ix1 q)) q
  unfold net
  refine congrArg (· + x16 (ix1 q)) (Finset.sum_congr rfl fun k _ => ?_)
  have el : lidx_main_v59 (ix2 r q) k = ix2 r k := funext fun a => Fin.ext (by
    match a with
    | ⟨0, _⟩ => rfl
    | ⟨1, _⟩ => rfl)
  have er : ridx_main_v59 (ix2 r q) k = ix2 k q := funext fun a => Fin.ext (by
    match a with
    | ⟨0, _⟩ => rfl
    | ⟨1, _⟩ => rfl)
  have e56 : idx_main_v55 (idx_main_v56 (ix2 r k)) = ix1 k := funext fun a => Fin.ext (by
    match a with
    | ⟨0, _⟩ => rfl)
  rw [el, er, val_main_v58_apply, val_main_v57_apply, val_main_v54_apply, val_main_v56_apply, val_main_v55_apply, e56,
    val_main_call2_v0_apply, val_main_call2_cst_apply, Ideal.maximumf_def, Ideal.addf_def, Ideal.ofBits_def, Ideal.ofBits_zero_f32]
  refine congrArg (fun z => max (z + x14 (ix1 k)) 0 * x15 (ix2 k q)) (Finset.sum_congr rfl fun l _ => ?_)
  have el' : lidx_main_v54 (ix2 r k) l = ix2 r l := funext fun a => Fin.ext (by
    match a with
    | ⟨0, _⟩ => rfl
    | ⟨1, _⟩ => rfl)
  have er' : ridx_main_v54 (ix2 r k) l = ix2 l k := funext fun a => Fin.ext (by
    match a with
    | ⟨0, _⟩ => rfl
    | ⟨1, _⟩ => rfl)
  rw [el', er']
  unfold val_main_v53
  rw [concat_cols_apply]
  rfl

/-! ## From the blocks to the array -/

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the ten points: the three row-blocked windows sit at block (t, 0), the four
    weight windows at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- WHAT POINT t WRITES BACK is block t of the update net of the arrays as the region finds them. -/
theorem flushed_eq (c : Dev nD) (t : Fin cfg2.N) :
    (dat2 (F := Ideal) V c).flushed 6 t = ((cfg2.win 6).blk t).view.read (Elt Ideal)
      (netArr (V c main_v0) (V c main_v19) (V c main_arg13) (V c main_arg14) (V c main_arg15) (V c main_arg16)) := by
  show (cfg2.win 6).cut (grid2.coords t) ((dat2 (F := Ideal) V c).after 6 t) = _
  rw [after2_6]
  unfold out2_6
  rw [View.canon_unit_zero hz2]
  simp only [View.ld_unit_zero (S := S5000x64) hz2, View.ld_unit_zero (S := S128x64) hz2, View.ld_unit_zero (S := S64x64) hz2,
    View.ld_unit_zero (S := S64) hz1]
  obtain ⟨e00, e01, e10, e11, e20, e21, e30, e40, e41, e50, e60, e61⟩ := idx_facts t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 p q)
    = netArr (V c main_v0) (V c main_v19) (V c main_arg13) (V c main_arg14) (V c main_arg15) (V c main_arg16)
        (((cfg2.win 6).blk t).view.emb (ix2 p q))
  have ht : t.val < 10 := Nat.lt_of_lt_of_eq t.isLt N_2
  have hE : ((cfg2.win 6).blk t).view.emb (ix2 p q) = ix2 (⟨5000 * t.val + p.val, by omega⟩ : Fin 50000) q := by
    funext a; apply Fin.ext
    match a with
    | ⟨0, _⟩ => show win2_6.index t (0 : Fin 2) * 5000 + 1 * p.val = 5000 * t.val + p.val; rw [e60]; omega
    | ⟨1, _⟩ => show win2_6.index t (1 : Fin 2) * 64 + 1 * q.val = q.val; rw [e61]; omega
  have h0 : (fun l : Fin 64 => iblk2 V c 0 t (ix2 p l)) = fun l => V c main_v0 (ix2 (⟨5000 * t.val + p.val, by omega⟩ : Fin 50000) l) := by
    funext l
    show V c main_v0 (((cfg2.win 0).blk t).view.emb (ix2 p l)) = _
    refine congrArg (V c main_v0) (funext fun a => Fin.ext ?_)
    match a with
    | ⟨0, _⟩ => show win2_0.index t (0 : Fin 2) * 5000 + 1 * p.val = 5000 * t.val + p.val; rw [e00]; omega
    | ⟨1, _⟩ => show win2_0.index t (1 : Fin 2) * 64 + 1 * l.val = l.val; rw [e01]; omega
  have h1 : (fun l : Fin 64 => iblk2 V c 1 t (ix2 p l)) = fun l => V c main_v19 (ix2 (⟨5000 * t.val + p.val, by omega⟩ : Fin 50000) l) := by
    funext l
    show V c main_v19 (((cfg2.win 1).blk t).view.emb (ix2 p l)) = _
    refine congrArg (V c main_v19) (funext fun a => Fin.ext ?_)
    match a with
    | ⟨0, _⟩ => show win2_1.index t (0 : Fin 2) * 5000 + 1 * p.val = 5000 * t.val + p.val; rw [e10]; omega
    | ⟨1, _⟩ => show win2_1.index t (1 : Fin 2) * 64 + 1 * l.val = l.val; rw [e11]; omega
  have h2 : (fun (l : Fin 128) (k : Fin 64) => iblk2 V c 2 t (ix2 l k)) = fun l k => V c main_arg13 (ix2 l k) := by
    funext l k
    show V c main_arg13 (((cfg2.win 2).blk t).view.emb (ix2 l k)) = _
    refine congrArg (V c main_arg13) (funext fun a => Fin.ext ?_)
    match a with
    | ⟨0, _⟩ => show win2_2.index t (0 : Fin 2) * 128 + 1 * l.val = l.val; rw [e20]; omega
    | ⟨1, _⟩ => show win2_2.index t (1 : Fin 2) * 64 + 1 * k.val = k.val; rw [e21]; omega
  have h3 : (fun k : Fin 64 => iblk2 V c 3 t (ix1 k)) = fun k => V c main_arg14 (ix1 k) := by
    funext k
    show V c main_arg14 (((cfg2.win 3).blk t).view.emb (ix1 k)) = _
    refine congrArg (V c main_arg14) (funext fun a => Fin.ext ?_)
    match a with
    | ⟨0, _⟩ => show win2_3.index t (0 : Fin 1) * 64 + 1 * k.val = k.val; rw [e30]; omega
  have h4 : (fun (k : Fin 64) (q : Fin 64) => iblk2 V c 4 t (ix2 k q)) = fun k q => V c main_arg15 (ix2 k q) := by
    funext k q
    show V c main_arg15 (((cfg2.win 4).blk t).view.emb (ix2 k q)) = _
    refine congrArg (V c main_arg15) (funext fun a => Fin.ext ?_)
    match a with
    | ⟨0, _⟩ => show win2_4.index t (0 : Fin 2) * 64 + 1 * k.val = k.val; rw [e40]; omega
    | ⟨1, _⟩ => show win2_4.index t (1 : Fin 2) * 64 + 1 * q.val = q.val; rw [e41]; omega
  have h5 : (fun q : Fin 64 => iblk2 V c 5 t (ix1 q)) = fun q => V c main_arg16 (ix1 q) := by
    funext q
    show V c main_arg16 (((cfg2.win 5).blk t).view.emb (ix1 q)) = _
    refine congrArg (V c main_arg16) (funext fun a => Fin.ext ?_)
    match a with
    | ⟨0, _⟩ => show win2_5.index t (0 : Fin 1) * 64 + 1 * q.val = q.val; rw [e50]; omega
  rw [pay_apply, hE, h0, h1, h2, h3, h4, h5]
  rfl

/-- An index of the output array is in point t's block iff each coordinate is in the block's range on its axis. -/
theorem mem_blk (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v20).slice (win2_6.rect t)).set ↔ _
  rw [View.set_slice_whole, Rect.mem_set_unit]
  exact Iff.rfl

/-- Row r of the output lies in the block of point r / 5000: the ten blocks of 5000 rows cover the 50000 rows. -/
theorem cover (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have hN : (i 0).val / 5000 < cfg2.N := Nat.lt_of_lt_of_eq (show (i 0).val / 5000 < 10 by omega) N_2.symm
  obtain ⟨-, -, -, -, -, -, -, -, -, -, e60, e61⟩ := idx_facts ⟨(i 0).val / 5000, hN⟩
  refine ⟨⟨(i 0).val / 5000, hN⟩, flush2_6 _, ?_⟩
  rw [mem_blk]
  intro a
  match a with
  | ⟨0, _⟩ =>
    show win2_6.index ⟨(i 0).val / 5000, hN⟩ (0 : Fin 2) * 5000 ≤ (i 0).val ∧ (i 0).val < win2_6.index ⟨(i 0).val / 5000, hN⟩ (0 : Fin 2) * 5000 + 5000
    rw [e60]
    show (i 0).val / 5000 * 5000 ≤ (i 0).val ∧ (i 0).val < (i 0).val / 5000 * 5000 + 5000
    omega
  | ⟨1, _⟩ =>
    show win2_6.index ⟨(i 0).val / 5000, hN⟩ (1 : Fin 2) * 64 ≤ (i 1).val ∧ (i 1).val < win2_6.index ⟨(i 0).val / 5000, hN⟩ (1 : Fin 2) * 64 + 64
    rw [e61]
    omega

/-- THE OUTPUT ARRAY after the region's ten write-backs: the update net of the arrays as the region finds them. -/
theorem final (c : Dev nD) : (dat2 (F := Ideal) V c).arrAt 6 cfg2.N
    = netArr (V c main_v0) (V c main_v19) (V c main_arg13) (V c main_arg14) (V c main_arg15) (V c main_arg16) :=
  (dat2 (F := Ideal) V c).arrAt_eq_of_cover 6 _ (fun t _ => flushed_eq V c t) cover

/-! ## The region's value -/

theorem region2_value (c : Dev nD) (x0 : (⟨Cert.ReferenceIdeal.S50000x5, .f32⟩ : BufTy).Contents (Elt Ideal)) (x1 : (⟨Cert.ReferenceIdeal.S1200000x2, .f32⟩ : BufTy).Contents (Elt Ideal)) (x2 : (⟨Cert.ReferenceIdeal.S2x1200000, .i32⟩ : BufTy).Contents (Elt Ideal)) (x3 : (⟨Cert.ReferenceIdeal.S5x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S2x64, .f32⟩ : BufTy).Contents (Elt Ideal)) (x8 : (⟨Cert.ReferenceIdeal.S64, .f32⟩ : BufTy).Contents (Elt Ideal)) (x9 : (⟨Cert.ReferenceIdeal.S192x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64, .f32⟩ : BufTy).Contents (Elt Ideal)) (x13 : (⟨Cert.ReferenceIdeal.S128x64, .f32⟩ : BufTy).Contents (Elt Ideal)) (x14 : (⟨Cert.ReferenceIdeal.S64, .f32⟩ : BufTy).Contents (Elt Ideal)) (x15 : (⟨Cert.ReferenceIdeal.S64x64, .f32⟩ : BufTy).Contents (Elt Ideal)) (x16 : (⟨Cert.ReferenceIdeal.S64, .f32⟩ : BufTy).Contents (Elt Ideal))
    (h0 : V c main_v0 = Cert.ReferenceIdeal.Read.val_main_v8 (F := Ideal) x0 x3 x4 x5 x6)
    (h19 : V c main_v19 = Cert.ReferenceIdeal.Read.val_main_v52 (F := Ideal) x0 x1 x2 x3 x4 x5 x6 x7 x8 x9 x10 x11 x12)
    (h13 : V c main_arg13 = x13) (h14 : V c main_arg14 = x14) (h15 : V c main_arg15 = x15) (h16 : V c main_arg16 = x16) :
    (dat2 (F := Ideal) V c).arrAt 6 cfg2.N
      = Cert.ReferenceIdeal.Read.val_main_v62 (F := Ideal) x0 x1 x2 x3 x4 x5 x6 x7 x8 x9 x10 x11 x12 x13 x14 x15 x16 := by
  rw [final V c, h0, h19, h13, h14, h15, h16]
  exact (ref_eq x0 x1 x2 x3 x4 x5 x6 x7 x8 x9 x10 x11 x12 x13 x14 x15 x16).symm

end Cert.KernelIdeal.UpdateNet

end
-- ==== Proof.PreRange.lean ====
/-
  What the precondition says of the edge list: its last conjunct, the conjunction over all entries of
  0 ≤ edge_index and edge_index < 50000, read back as a statement about every entry.
-/
import proofs.«406139_j54039278518761_1_alg».proof.Defs
import proofs.«406139_j54039278518761_1_alg».proof.Proof.Gen.Pre_finite_inputs
import proofs.«406139_j54039278518761_1_alg».proof.Proof.TakeRows
import Idealize.ShloMosaic.Lib.StableHlo.Predicate
import Idealize.ShloMosaic.Lib.ReduceAll
import Idealize.ShloMosaic.Lib.ValueIdx

noncomputable section

namespace Cert.KernelIdeal.PreRange

open Idealize.ShloMosaic Idealize.SL.Sem

/-- Under the precondition every entry of the edge list is a node index, on every device. -/
theorem inRange_of_pre
    (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.KernelIdeal.TakeRows.InRange (m ((c.tc : Thread Cert.KernelIdeal.nD Cert.KernelIdeal.τ).loc Cert.KernelIdeal.main_arg2)) := by
  -- the predicate at its one index, opened down to its last conjunct
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  have h2 := (IntOp.andi_eq_one.1 h).2
  haveI : Subsingleton Cert.Pre_finite_inputs.S_.Idx := ⟨fun a b => funext fun d => d.elim0⟩
  intro i
  -- the conjunction over all entries is 1, so entry i passes both range tests
  have hi := Host.reduce_andi_all _ _ _ _ _ h2 i
  obtain ⟨ha, hb⟩ := IntOp.andi_eq_one.1 hi
  have ha' := IntOp.cmpi_sge.1 ha
  have hb' := IntOp.cmpi_slt.1 hb
  have h0 : (0#32 : BitVec 32).toInt = 0 := by decide
  have h5 : (50000#32 : BitVec 32).toInt = 50000 := by decide
  exact ⟨h0 ▸ ha', h5 ▸ hb'⟩

end Cert.KernelIdeal.PreRange

end
-- ==== Proof.KernelValue.lean ====
/-
  The whole program read as a value. Region 0 leaves the node encoding h; the host looks h up by destination and by
  source (the guarded lookup, which is the plain one where every edge endpoint is a node index); region 1 leaves the
  messages; the host averages them by destination; region 2 leaves the result. Stage by stage these are the
  reference's own stages of the same argument arrays, so the result array is the reference's result.
-/
import proofs.«406139_j54039278518761_1_alg».proof.Proof.KernelRun
import proofs.«406139_j54039278518761_1_alg».proof.Proof.HostGlue
import proofs.«406139_j54039278518761_1_alg».proof.Proof.Region0
import proofs.«406139_j54039278518761_1_alg».proof.Proof.Region1
import proofs.«406139_j54039278518761_1_alg».proof.Proof.Region2
import proofs.«406139_j54039278518761_1_alg».proof.Proof.TakeRows
import proofs.«406139_j54039278518761_1_alg».proof.Proof.PreRange

set_option maxRecDepth 16384

noncomputable section

namespace Cert.KernelIdeal.Whole

open Cert.KernelIdeal Cert.KernelIdeal.Gen Cert.KernelIdeal.TakeRows Cert.KernelIdeal.HostGlue
open Cert.KernelIdeal.NodeEncoder Cert.KernelIdeal.EdgeMessage Cert.KernelIdeal.UpdateNet
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- After region 0 the node encoding's buffer holds the reference's node encoder of the arguments. -/
theorem encoding_value (c : Dev nD) :
    W1 m ρ c (Proc.devRef .tc main_v0)
      = Cert.ReferenceIdeal.Read.val_main_v8 (F := Ideal) (m ((c : Thread nD τ).loc main_arg0)) (m ((c : Thread nD τ).loc main_arg3)) (m ((c : Thread nD τ).loc main_arg4)) (m ((c : Thread nD τ).loc main_arg5)) (m ((c : Thread nD τ).loc main_arg6)) :=
  (W1_v0 m ρ c).trans (region0_value (V0 m ρ) c)

/-- After region 1 the message buffer holds the reference's message stage of the arguments. -/
theorem message_value (c : Dev nD) (hr : InRange (m ((c : Thread nD τ).loc main_arg2))) :
    W5 m ρ c (Proc.devRef .tc main_v7)
      = Cert.ReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have hh := encoding_value m ρ c
  have h5 : V4 m ρ c main_v5 = Cert.ReferenceIdeal.Read.val_main_v23 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
    show W4 m ρ c (Proc.devRef .tc main_v5) = _
    rw [W4_v5, W1_arg2]
    exact take_dst _ _ _ _ _ _ hr _ hh
  have h6 : V4 m ρ c main_v6 = Cert.ReferenceIdeal.Read.val_main_v30 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
    show W4 m ρ c (Proc.devRef .tc main_v6) = _
    rw [W4_v6, W1_arg2]
    exact take_src _ _ _ _ _ _ hr _ hh
  exact (W5_v7 m ρ c).trans
    (region1_value (V4 m ρ) c _ _ _ _ _ _ _ _ _ _ _ _ _ h5 h6 (W4_arg1 m ρ c) (W4_arg7 m ρ c) (W4_arg8 m ρ c) (W4_arg9 m ρ c)
      (W4_arg10 m ρ c) (W4_arg11 m ρ c) (W4_arg12 m ρ c))

/-- At region 2's entry the aggregate's buffer holds the reference's mean aggregate of the arguments. -/
theorem aggregate_value (c : Dev nD) (hr : InRange (m ((c : Thread nD τ).loc main_arg2))) :
    W6 m ρ c (Proc.devRef .tc main_v19)
      = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [W6_v19, message_value m ρ c hr, W5_of_ne m ρ c main_v4 (by decide), W4_v4, W1_arg2]
  rfl

/-- THE RESULT ARRAY after the run is the reference's result of the argument arrays. -/
theorem result_value (c : Dev nD) (hr : InRange (m ((c : Thread nD τ).loc main_arg2))) :
    W7 m ρ c (Proc.devRef .tc main_v20)
      = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have h0 : V6 m ρ c main_v0 = Cert.ReferenceIdeal.Read.val_main_v8 (F := Ideal) (m ((c : Thread nD τ).loc main_arg0)) (m ((c : Thread nD τ).loc main_arg3)) (m ((c : Thread nD τ).loc main_arg4)) (m ((c : Thread nD τ).loc main_arg5)) (m ((c : Thread nD τ).loc main_arg6)) :=
    (W6_v0 m ρ c).trans (encoding_value m ρ c)
  have h19 : V6 m ρ c main_v19 = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
    aggregate_value m ρ c hr
  exact (W7_arr m ρ c 6).trans
    (region2_value (V6 m ρ) c _ _ _ _ _ _ _ _ _ _ _ _ _ _ _ _ _ h0 h19 (W6_arg13 m ρ c) (W6_arg14 m ρ c) (W6_arg15 m ρ c) (W6_arg16 m ρ c))

/-- Under the precondition every weakly fair execution terminates without a fault, the result array at the reference's
    result of the argument arrays, the argument arrays unchanged. -/
theorem run_value (hpre : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v20)
        = Cert.ReferenceIdeal.Read.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono
    (fun r h c => ⟨(h c).1.trans (result_value m ρ c (Cert.KernelIdeal.PreRange.inRange_of_pre m hpre c)), (h c).2⟩)
    (run_main m ρ)

end Cert.KernelIdeal.Whole

end
-- ==== Proof.lean ====
/-
  The certificate. The kernel is a message-passing layer in three tiled matrix kernels — the node encoder
  h = relu(x·Wn1 + bn1)·Wn2 + bn2, the message net over [h[dst] | h[src] | edge_attr·We + be], the update net over
  [h | mean of the messages by destination] — with the row lookups and the mean on the host; the reference is the
  same layer in plain array operations. The two differ in tiling (each kernel works on 5000 or 8000 rows at a time),
  in a change of float format before each product (the identity on extended reals), and in the row lookup: the
  kernel's lookup returns a filler for an index outside 0 … 49999 where the reference's does not, so the two agree
  exactly where every edge endpoint is a node index, which the precondition states. Under it each kernel region's
  array is the reference's stage of the same arguments, row by row, and the host steps between them are the
  reference's own.
  The three frames: the two kernel programs run without a fault and leave their arguments unchanged; the reference's
  frame is its run with the result dropped. Nothing was rewritten in the idealization, so there is nothing to preserve.
-/
import proofs.«406139_j54039278518761_1_alg».proof.Defs
import proofs.«406139_j54039278518761_1_alg».proof.Proof.Gen.Kernel
import proofs.«406139_j54039278518761_1_alg».proof.Proof.Gen.Kernel.Skeleton
import proofs.«406139_j54039278518761_1_alg».proof.Proof.Gen.Kernel.Launch
import proofs.«406139_j54039278518761_1_alg».proof.Proof.Gen.Kernel.Points
import proofs.«406139_j54039278518761_1_alg».proof.Proof.Gen.Kernel.Frame
import proofs.«406139_j54039278518761_1_alg».proof.Proof.Gen.KernelIdeal
import proofs.«406139_j54039278518761_1_alg».proof.Proof.Gen.KernelIdeal.Skeleton
import proofs.«406139_j54039278518761_1_alg».proof.Proof.Gen.KernelIdeal.Launch
import proofs.«406139_j54039278518761_1_alg».proof.Proof.Gen.KernelIdeal.Points
import proofs.«406139_j54039278518761_1_alg».proof.Proof.Gen.KernelIdeal.Frame
import proofs.«406139_j54039278518761_1_alg».proof.Proof.Gen.ReferenceIdeal
import proofs.«406139_j54039278518761_1_alg».proof.Proof.Gen.ReferenceIdeal.Run
import proofs.«406139_j54039278518761_1_alg».proof.Proof.Gen.ReferenceIdeal.Read
import proofs.«406139_j54039278518761_1_alg».proof.Proof.Gen.Pre_finite_inputs
import proofs.«406139_j54039278518761_1_alg».proof.Proof.KernelValue
import Idealize.ShloMosaic.Adequacy
import Idealize.ShloMosaic.Init

noncomputable section

namespace Cert.Proof

open Idealize.ShloMosaic Idealize.SL.Sem

/-- Both idealized programs run, and end with the same result array: the reference's result of the argument arrays. -/
theorem algebraic : Cert.algebraic_KernelIdeal_ReferenceIdeal := by
  intro m ρ m' ρ' hpre hagree
  refine ⟨_, Cert.KernelIdeal.Whole.run_value m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq]
  obtain ⟨e0, e1, e2, e3, e4, e5, e6, e7, e8, e9, e10, e11, e12, e13, e14, e15, e16⟩ := hagree c
  rw [e0, e1, e2, e3, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
